-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x524288 : Shape := ⟨2, ![64, 524288]⟩
abbrev S_ : Shape := ⟨0, ![]⟩

class Facts : Prop where
  bcast_S_S64x524288 : S_.BroadcastsInDim S64x524288 (![] : Fin 0 → Fin S64x524288.rank)
  reducesTo_S64x524288_S_d0_1 : S64x524288.ReducesTo [0, 1] S_
  h_S_ : 0 < S_.numel

variable [Facts]

def fn {F : FTy → Type} [FloatOps F] (main_arg0 : FVec F S64x524288 .f32) (main_arg1 : FVec F S64x524288 .f32) : IVec S_ 1 :=
  let main_v0 : FVec F S64x524288 .f32 := Host.absf main_arg0
  let main_cst : FVec F S_ .f32 := constant S_ .f32 0x7F800000#32
  let main_v1 : FVec F S64x524288 .f32 := broadcastInDim S64x524288 ![] bcast_S_S64x524288 main_cst
  let main_v2 : IVec S64x524288 1 := cmpf .olt main_v0 main_v1
  let main_c : IVec S_ 1 := constantI S_ 1 1#1
  let main_v3 : IVec S_ 1 := (fun x v => Host.reduce IntOp.andi x v reducesTo_S64x524288_S_d0_1 h_S_) main_v2 main_c
  let main_v4 : FVec F S64x524288 .f32 := Host.absf main_arg1
  let main_cst_0 : FVec F S_ .f32 := constant S_ .f32 0x7F800000#32
  let main_v5 : FVec F S64x524288 .f32 := broadcastInDim S64x524288 ![] bcast_S_S64x524288 main_cst_0
  let main_v6 : IVec S64x524288 1 := cmpf .olt main_v4 main_v5
  let main_c_1 : IVec S_ 1 := constantI S_ 1 1#1
  let main_v7 : IVec S_ 1 := (fun x v => Host.reduce IntOp.andi x v reducesTo_S64x524288_S_d0_1 h_S_) main_v6 main_c_1
  let main_v8 : IVec S_ 1 := andi main_v3 main_v7
  main_v8
-- ==== Kernel.lean ====
abbrev S64x524288 : Shape := ⟨2, ![64, 524288]⟩
abbrev S64x32x32 : Shape := ⟨3, ![64, 32, 32]⟩
abbrev S32x4096 : Shape := ⟨2, ![32, 4096]⟩
abbrev S32x32x32 : Shape := ⟨3, ![32, 32, 32]⟩
abbrev S1x32x1 : Shape := ⟨3, ![1, 32, 1]⟩
abbrev S32x1x4096 : Shape := ⟨3, ![32, 1, 4096]⟩
abbrev S32x32x4096 : Shape := ⟨3, ![32, 32, 4096]⟩
abbrev S1x1x32 : Shape := ⟨3, ![1, 1, 32]⟩
abbrev S32x4096x1 : Shape := ⟨3, ![32, 4096, 1]⟩
abbrev S32x4096x32 : Shape := ⟨3, ![32, 4096, 32]⟩
abbrev S_ : Shape := ⟨0, ![]⟩
abbrev S64 : Shape := ⟨1, ![64]⟩
abbrev S64x1x1 : Shape := ⟨3, ![64, 1, 1]⟩
abbrev S64x32 : Shape := ⟨2, ![64, 32]⟩
abbrev S64x32x1 : Shape := ⟨3, ![64, 32, 1]⟩
abbrev S64x1x32 : Shape := ⟨3, ![64, 1, 32]⟩

abbrev nBuf : Space → Nat
  | .hbm => 36
  | .vmem => 7
  | .smem => 0
  | _ => 0

abbrev bufTy : (tb : Table) → Fin (tcTables nBuf tb) → BufTy
  | .hbm, ⟨0, _⟩ => ⟨S64x524288, .f32⟩
  | .hbm, ⟨1, _⟩ => ⟨S64x524288, .f32⟩
  | .hbm, ⟨2, _⟩ => ⟨S64x32x32, .f32⟩
  | .hbm, ⟨3, _⟩ => ⟨S_, .f32⟩
  | .hbm, ⟨4, _⟩ => ⟨S64, .f32⟩
  | .hbm, ⟨5, _⟩ => ⟨S64x1x1, .f32⟩
  | .hbm, ⟨6, _⟩ => ⟨S64x32x32, .f32⟩
  | .hbm, ⟨7, _⟩ => ⟨S64x32x32, .f32⟩
  | .hbm, ⟨8, _⟩ => ⟨S_, .f32⟩
  | .hbm, ⟨9, _⟩ => ⟨S64x32, .f32⟩
  | .hbm, ⟨10, _⟩ => ⟨S64x32x1, .f32⟩
  | .hbm, ⟨11, _⟩ => ⟨S_, .f32⟩
  | .hbm, ⟨12, _⟩ => ⟨S64x32, .f32⟩
  | .hbm, ⟨13, _⟩ => ⟨S64x1x32, .f32⟩
  | .hbm, ⟨14, _⟩ => ⟨S_, .f32⟩
  | .hbm, ⟨15, _⟩ => ⟨S64x32x32, .f32⟩
  | .hbm, ⟨16, _⟩ => ⟨S64x32x32, .f32⟩
  | .hbm, ⟨17, _⟩ => ⟨S_, .f32⟩
  | .hbm, ⟨18, _⟩ => ⟨S64x32x1, .f32⟩
  | .hbm, ⟨19, _⟩ => ⟨S64x32x1, .f32⟩
  | .hbm, ⟨20, _⟩ => ⟨S_, .f32⟩
  | .hbm, ⟨21, _⟩ => ⟨S64x1x32, .f32⟩
  | .hbm, ⟨22, _⟩ => ⟨S64x1x32, .f32⟩
  | .hbm, ⟨23, _⟩ => ⟨S64x32x32, .f32⟩
  | .hbm, ⟨24, _⟩ => ⟨S64x32x32, .f32⟩
  | .hbm, ⟨25, _⟩ => ⟨S64x32x32, .f32⟩
  | .hbm, ⟨26, _⟩ => ⟨S64x32x32, .f32⟩
  | .hbm, ⟨27, _⟩ => ⟨S64x32x32, .f32⟩
  | .hbm, ⟨28, _⟩ => ⟨S64x32x32, .f32⟩
  | .hbm, ⟨29, _⟩ => ⟨S_, .f32⟩
  | .hbm, ⟨30, _⟩ => ⟨S64, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S32x4096, .f32⟩
  | .local _ .vmem, ⟨1, _⟩ => ⟨S32x4096, .f32⟩
  | .local _ .vmem, ⟨2, _⟩ => ⟨S32x4096, .f32⟩
  | .local _ .vmem, ⟨3, _⟩ => ⟨S32x4096, .f32⟩
  | .local _ .vmem, ⟨4, _⟩ => ⟨S32x32x32, .f32⟩
  | .local _ .vmem, ⟨5, _⟩ => ⟨S32x32x32, .f32⟩
  | .local _ .vmem, ⟨6, _⟩ => ⟨S32x32x32, .f32⟩
  | _, _ => ⟨S64x524288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 128], ![false, false]⟩

def k0_cond2 (i : grid0.Coords) : BitVec 1 :=
  let arg1 : BitVec 32 := BitVec.ofNat 32 (i 1).val
  let c127_i32 : BitVec 32 := 127#32
  let v58 : BitVec 1 := Scalar.cmpi .eq arg1 c127_i32
  let v59 : BitVec 32 := Scalar.extui v58
  let c0_i32_19 : BitVec 32 := 0#32
  let v60 : BitVec 1 := Scalar.cmpi .ne v59 c0_i32_19
  v60

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S32x32x32_S32x32x32_0_0_0 : ∀ a, (![0, 0, 0] : Fin 3 → Nat) a + S32x32x32.size a ≤ S32x32x32.size a
  h_S32x32x32 : 0 < S32x32x32.numel
  shapeCasts_S32x32x32_S32x32x32 : S32x32x32.ShapeCasts S32x32x32
  inb_S32x4096_S32x4096_0_0 : ∀ a, (![0, 0] : Fin 2 → Nat) a + S32x4096.size a ≤ S32x4096.size a
  h_S32x4096 : 0 < S32x4096.numel
  iota_S1x32x1_d1_w32 : S1x32x1.Iotas .tc 32 [1]
  shapeCasts_S32x4096_S32x1x4096 : S32x4096.ShapeCasts S32x1x4096
  broadcasts_S32x1x4096_S32x32x4096 : S32x1x4096.Broadcasts S32x32x4096
  broadcasts_S1x32x1_S32x32x4096 : S1x32x1.Broadcasts S32x32x4096
  natLt_1_32 : 1 < 32
  bitsLt_bf16_f32 : FTy.bits .bf16 < FTy.bits .f32
  iota_S1x1x32_d2_w32 : S1x1x32.Iotas .tc 32 [2]
  shapeCasts_S32x4096_S32x4096x1 : S32x4096.ShapeCasts S32x4096x1
  broadcasts_S32x4096x1_S32x4096x32 : S32x4096x1.Broadcasts S32x4096x32
  broadcasts_S1x1x32_S32x4096x32 : S1x1x32.Broadcasts S32x4096x32
  reducesTo_S64x32x32_S64_d1_2 : S64x32x32.ReducesTo [1, 2] S64
  h_S_ : 0 < S_.numel
  bcast_S64_S64x1x1_0 : S64.BroadcastsInDim S64x1x1 (![0] : Fin 1 → Fin S64x1x1.rank)
  bcast_S64x1x1_S64x32x32_0_1_2 : S64x1x1.BroadcastsInDim S64x32x32 (![0, 1, 2] : Fin 3 → Fin S64x32x32.rank)
  reducesTo_S64x32x32_S64x32_d2 : S64x32x32.ReducesTo [2] S64x32
  bcast_S64x32_S64x32x1_0_1 : S64x32.BroadcastsInDim S64x32x1 (![0, 1] : Fin 2 → Fin S64x32x1.rank)
  reducesTo_S64x32x32_S64x32_d1 : S64x32x32.ReducesTo [1] S64x32
  bcast_S64x32_S64x1x32_0_2 : S64x32.BroadcastsInDim S64x1x32 (![0, 2] : Fin 2 → Fin S64x1x32.rank)
  bcast_S_S64x32x32 : S_.BroadcastsInDim S64x32x32 (![] : Fin 0 → Fin S64x32x32.rank)
  bcast_S_S64x32x1 : S_.BroadcastsInDim S64x32x1 (![] : Fin 0 → Fin S64x32x1.rank)
  bcast_S_S64x1x32 : S_.BroadcastsInDim S64x1x32 (![] : Fin 0 → Fin S64x1x32.rank)
  bcast_S64x32x1_S64x32x32_0_1_2 : S64x32x1.BroadcastsInDim S64x32x32 (![0, 1, 2] : Fin 3 → Fin S64x32x32.rank)
  bcast_S64x1x32_S64x32x32_0_1_2 : S64x1x32.BroadcastsInDim S64x32x32 (![0, 1, 2] : Fin 3 → Fin S64x32x32.rank)
  reducesTo_S64_S_d0 : S64.ReducesTo [0] S_
  dot_S32x32x4096_S32x4096x32_S32x32x32_2_1_1_2_0_0_wf : DotDims.WF S32x32x4096 S32x4096x32 S32x32x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S64x524288.size a
  hwx0_0 : ∀ i : grid0.Coords, EltTy.bits .f32 = 32 ∨ (Rect.block (s := S64x524288) S32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x4096.size a ≤ S64x524288.size a
  hwx0_1 : ∀ i : grid0.Coords, EltTy.bits .f32 = 32 ∨ (Rect.block (s := S64x524288) S32x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x32x32.size a ≤ S64x32x32.size a
  hwx0_2 : ∀ i : grid0.Coords, EltTy.bits .f32 = 32 ∨ (Rect.block (s := S64x32x32) S32x32x32.size (cc0_transform_2 i) (hinb0_2 i)).WholeWords (EltTy.packing .f32)

variable [Facts₀]

def dot_S32x32x4096_S32x4096x32_S32x32x32_2_1_1_2_0_0 : DotDims S32x32x4096 S32x4096x32 S32x32x32 where
  lhsContracting := [2]
  rhsContracting := [1]
  lhsNonContracting := [1]
  rhsNonContracting := [2]
  lhsBatch := [0]
  rhsBatch := [0]
  wf := dot_S32x32x4096_S32x4096x32_S32x32x32_2_1_1_2_0_0_wf

abbrev win0_0 : Pipeline.Window sig grid0 :=
  Pipeline.Window.ofSpec (Memref.whole main_arg0) S32x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x32x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x524288 : Shape := ⟨2, ![64, 524288]⟩
abbrev S_ : Shape := ⟨0, ![]⟩
abbrev S64 : Shape := ⟨1, ![64]⟩
abbrev S64x1 : Shape := ⟨2, ![64, 1]⟩
abbrev S33554432 : Shape := ⟨1, ![33554432]⟩
abbrev S65536 : Shape := ⟨1, ![65536]⟩
abbrev S33554432x1 : Shape := ⟨2, ![33554432, 1]⟩
abbrev S64x32x32 : Shape := ⟨3, ![64, 32, 32]⟩
abbrev S64x1x1 : Shape := ⟨3, ![64, 1, 1]⟩
abbrev S64x32 : Shape := ⟨2, ![64, 32]⟩
abbrev S64x32x1 : Shape := ⟨3, ![64, 32, 1]⟩
abbrev S64x1x32 : Shape := ⟨3, ![64, 1, 32]⟩

abbrev nBuf : Space → Nat
  | .hbm => 93
  | .vmem => 0
  | .smem => 0
  | _ => 0

abbrev bufTy : (tb : Table) → Fin (tcTables nBuf tb) → BufTy
  | .hbm, ⟨0, _⟩ => ⟨S64x524288, .f32⟩
  | .hbm, ⟨1, _⟩ => ⟨S64x524288, .f32⟩
  | .hbm, ⟨2, _⟩ => ⟨S_, .f32⟩
  | .hbm, ⟨3, _⟩ => ⟨S64x524288, .f32⟩
  | .hbm, ⟨4, _⟩ => ⟨S64x524288, .i1⟩
  | .hbm, ⟨5, _⟩ => ⟨S_, .f32⟩
  | .hbm, ⟨6, _⟩ => ⟨S64x524288, .f32⟩
  | .hbm, ⟨7, _⟩ => ⟨S64x524288, .i1⟩
  | .hbm, ⟨8, _⟩ => ⟨S64x524288, .i1⟩
  | .hbm, ⟨9, _⟩ => ⟨S_, .f32⟩
  | .hbm, ⟨10, _⟩ => ⟨S64x524288, .f32⟩
  | .hbm, ⟨11, _⟩ => ⟨S64x524288, .i1⟩
  | .hbm, ⟨12, _⟩ => ⟨S64x524288, .i1⟩
  | .hbm, ⟨13, _⟩ => ⟨S_, .f32⟩
  | .hbm, ⟨14, _⟩ => ⟨S64x524288, .f32⟩
  | .hbm, ⟨15, _⟩ => ⟨S64x524288, .i1⟩
  | .hbm, ⟨16, _⟩ => ⟨S64x524288, .i1⟩
  | .hbm, ⟨17, _⟩ => ⟨S_, .f32⟩
  | .hbm, ⟨18, _⟩ => ⟨S64x524288, .f32⟩
  | .hbm, ⟨19, _⟩ => ⟨S64x524288, .f32⟩
  | .hbm, ⟨20, _⟩ => ⟨S64x524288, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S64x524288, .i32⟩
  | .hbm, ⟨25, _⟩ => ⟨S64x524288, .i32⟩
  | .hbm, ⟨26, _⟩ => ⟨S_, .i32⟩
  | .hbm, ⟨27, _⟩ => ⟨S64x524288, .i32⟩
  | .hbm, ⟨28, _⟩ => ⟨S64x524288, .i32⟩
  | .hbm, ⟨29, _⟩ => ⟨S_, .f32⟩
  | .hbm, ⟨30, _⟩ => ⟨S64x524288, .f32⟩
  | .hbm, ⟨31, _⟩ => ⟨S64x524288, .f32⟩
  | .hbm, ⟨32, _⟩ => ⟨S64x524288, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S64x524288, .i32⟩
  | .hbm, ⟨37, _⟩ => ⟨S64x524288, .i32⟩
  | .hbm, ⟨38, _⟩ => ⟨S_, .i32⟩
  | .hbm, ⟨39, _⟩ => ⟨S64x524288, .i32⟩
  | .hbm, ⟨40, _⟩ => ⟨S64x524288, .i32⟩
  | .hbm, ⟨41, _⟩ => ⟨S64, .i32⟩
  | .hbm, ⟨42, _⟩ => ⟨S64x1, .i32⟩
  | .hbm, ⟨43, _⟩ => ⟨S_, .i32⟩
  | .hbm, ⟨44, _⟩ => ⟨S64x1, .i32⟩
  | .hbm, ⟨45, _⟩ => ⟨S64x1, .i32⟩
  | .hbm, ⟨46, _⟩ => ⟨S_, .i32⟩
  | .hbm, ⟨47, _⟩ => ⟨S64x524288, .i32⟩
  | .hbm, ⟨48, _⟩ => ⟨S64x524288, .i32⟩
  | .hbm, ⟨49, _⟩ => ⟨S64x524288, .i32⟩
  | .hbm, ⟨50, _⟩ => ⟨S64x524288, .i32⟩
  | .hbm, ⟨51, _⟩ => ⟨S64x524288, .i32⟩
  | .hbm, ⟨52, _⟩ => ⟨S64x524288, .f32⟩
  | .hbm, ⟨53, _⟩ => ⟨S33554432, .f32⟩
  | .hbm, ⟨54, _⟩ => ⟨S33554432, .i32⟩
  | .hbm, ⟨55, _⟩ => ⟨S_, .f32⟩
  | .hbm, ⟨56, _⟩ => ⟨S65536, .f32⟩
  | .hbm, ⟨57, _⟩ => ⟨S33554432x1, .i32⟩
  | .hbm, ⟨58, _⟩ => ⟨S65536, .f32⟩
  | .hbm, ⟨59, _⟩ => ⟨S64x32x32, .f32⟩
  | .hbm, ⟨60, _⟩ => ⟨S_, .f32⟩
  | .hbm, ⟨61, _⟩ => ⟨S64, .f32⟩
  | .hbm, ⟨62, _⟩ => ⟨S64x1x1, .f32⟩
  | .hbm, ⟨63, _⟩ => ⟨S64x32x32, .f32⟩
  | .hbm, ⟨64, _⟩ => ⟨S64x32x32, .f32⟩
  | .hbm, ⟨65, _⟩ => ⟨S_, .f32⟩
  | .hbm, ⟨66, _⟩ => ⟨S64x32, .f32⟩
  | .hbm, ⟨67, _⟩ => ⟨S64x32x1, .f32⟩
  | .hbm, ⟨68, _⟩ => ⟨S_, .f32⟩
  | .hbm, ⟨69, _⟩ => ⟨S64x32, .f32⟩
  | .hbm, ⟨70, _⟩ => ⟨S64x1x32, .f32⟩
  | .hbm, ⟨71, _⟩ => ⟨S_, .f32⟩
  | .hbm, ⟨72, _⟩ => ⟨S64x32x32, .f32⟩
  | .hbm, ⟨73, _⟩ => ⟨S64x32x32, .f32⟩
  | .hbm, ⟨74, _⟩ => ⟨S_, .f32⟩
  | .hbm, ⟨75, _⟩ => ⟨S64x32x1, .f32⟩
  | .hbm, ⟨76, _⟩ => ⟨S64x32x1, .f32⟩
  | .hbm, ⟨77, _⟩ => ⟨S_, .f32⟩
  | .hbm, ⟨78, _⟩ => ⟨S64x1x32, .f32⟩
  | .hbm, ⟨79, _⟩ => ⟨S64x1x32, .f32⟩
  | .hbm, ⟨80, _⟩ => ⟨S64x32x32, .f32⟩
  | .hbm, ⟨81, _⟩ => ⟨S64x32x32, .f32⟩
  | .hbm, ⟨82, _⟩ => ⟨S64x32x32, .f32⟩
  | .hbm, ⟨83, _⟩ => ⟨S64x32x32, .f32⟩
  | .hbm, ⟨84, _⟩ => ⟨S64x32x32, .f32⟩
  | .hbm, ⟨85, _⟩ => ⟨S64x32x32, .f32⟩
  | .hbm, ⟨86, _⟩ => ⟨S_, .f32⟩
  | .hbm, ⟨87, _⟩ => ⟨S64, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | _, _ => ⟨S64x524288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_c_4 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_6 : Ref sig .tc := ⟨.hbm, 33, rfl⟩
abbrev main_c_7 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_8 : Ref sig .tc := ⟨.hbm, 43, rfl⟩
abbrev main_v21 : Ref sig .tc := ⟨.hbm, 44, rfl⟩
abbrev main_v22 : Ref sig .tc := ⟨.hbm, 45, rfl⟩
abbrev main_c_9 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_10 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_11 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_12 : Ref sig .tc := ⟨.hbm, 65, rfl⟩
abbrev main_v39 : Ref sig .tc := ⟨.hbm, 66, rfl⟩
abbrev main_v40 : Ref sig .tc := ⟨.hbm, 67, rfl⟩
abbrev main_cst_13 : Ref sig .tc := ⟨.hbm, 68, rfl⟩
abbrev main_v41 : Ref sig .tc := ⟨.hbm, 69, rfl⟩
abbrev main_v42 : Ref sig .tc := ⟨.hbm, 70, rfl⟩
abbrev main_cst_14 : Ref sig .tc := ⟨.hbm, 71, rfl⟩
abbrev main_v43 : Ref sig .tc := ⟨.hbm, 72, rfl⟩
abbrev main_v44 : Ref sig .tc := ⟨.hbm, 73, rfl⟩
abbrev main_cst_15 : Ref sig .tc := ⟨.hbm, 74, rfl⟩
abbrev main_v45 : Ref sig .tc := ⟨.hbm, 75, rfl⟩
abbrev main_v46 : Ref sig .tc := ⟨.hbm, 76, rfl⟩
abbrev main_cst_16 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_17 : Ref sig .tc := ⟨.hbm, 86, rfl⟩
abbrev main_v55 : Ref sig .tc := ⟨.hbm, 87, rfl⟩
abbrev main_cst_18 : Ref sig .tc := ⟨.hbm, 88, rfl⟩
abbrev main_v56 : Ref sig .tc := ⟨.hbm, 89, rfl⟩
abbrev main_cst_19 : Ref sig .tc := ⟨.hbm, 90, rfl⟩
abbrev main_v57 : Ref sig .tc := ⟨.hbm, 91, rfl⟩
abbrev main_v58 : Ref sig .tc := ⟨.hbm, 92, rfl⟩

abbrev nD : Nat := 1
abbrev τ : Topo := Topo.v7x

variable {F : FTy → Type} [FloatOps F]

class Facts₀ : Prop where
  bcast_S_S64x524288 : S_.BroadcastsInDim S64x524288 (![] : Fin 0 → Fin S64x524288.rank)
  bcast_S64_S64x1_0 : S64.BroadcastsInDim S64x1 (![0] : Fin 1 → Fin S64x1.rank)
  bcast_S_S64x1 : S_.BroadcastsInDim S64x1 (![] : Fin 0 → Fin S64x1.rank)
  bcast_S64x1_S64x524288_0_1 : S64x1.BroadcastsInDim S64x524288 (![0, 1] : Fin 2 → Fin S64x524288.rank)
  shapeCasts_S64x524288_S33554432 : S64x524288.ShapeCasts S33554432
  bcast_S_S65536 : S_.BroadcastsInDim S65536 (![] : Fin 0 → Fin S65536.rank)
  bcast_S33554432_S33554432x1_0 : S33554432.BroadcastsInDim S33554432x1 (![0] : Fin 1 → Fin S33554432x1.rank)
  shapeCasts_S65536_S64x32x32 : S65536.ShapeCasts S64x32x32
  reducesTo_S64x32x32_S64_d1_2 : S64x32x32.ReducesTo [1, 2] S64
  h_S_ : 0 < S_.numel
  bcast_S64_S64x1x1_0 : S64.BroadcastsInDim S64x1x1 (![0] : Fin 1 → Fin S64x1x1.rank)
  bcast_S64x1x1_S64x32x32_0_1_2 : S64x1x1.BroadcastsInDim S64x32x32 (![0, 1, 2] : Fin 3 → Fin S64x32x32.rank)
  reducesTo_S64x32x32_S64x32_d2 : S64x32x32.ReducesTo [2] S64x32
  bcast_S64x32_S64x32x1_0_1 : S64x32.BroadcastsInDim S64x32x1 (![0, 1] : Fin 2 → Fin S64x32x1.rank)
  reducesTo_S64x32x32_S64x32_d1 : S64x32x32.ReducesTo [1] S64x32
  bcast_S64x32_S64x1x32_0_2 : S64x32.BroadcastsInDim S64x1x32 (![0, 2] : Fin 2 → Fin S64x1x32.rank)
  bcast_S_S64x32x32 : S_.BroadcastsInDim S64x32x32 (![] : Fin 0 → Fin S64x32x32.rank)
  bcast_S_S64x32x1 : S_.BroadcastsInDim S64x32x1 (![] : Fin 0 → Fin S64x32x1.rank)
  bcast_S_S64x1x32 : S_.BroadcastsInDim S64x1x32 (![] : Fin 0 → Fin S64x1x32.rank)
  bcast_S64x32x1_S64x32x32_0_1_2 : S64x32x1.BroadcastsInDim S64x32x32 (![0, 1, 2] : Fin 3 → Fin S64x32x32.rank)
  bcast_S64x1x32_S64x32x32_0_1_2 : S64x1x32.BroadcastsInDim S64x32x32 (![0, 1, 2] : Fin 3 → Fin S64x32x32.rank)
  reducesTo_S64_S_d0 : S64.ReducesTo [0] S_
  scatter_S65536_S33554432x1_S33554432_n_0_0_1_wf : ScatterDims.WF S65536 S33554432x1 S33554432 [] [0] [0] 1

variable [Facts₀]

def scatter_S65536_S33554432x1_S33554432_n_0_0_1 : ScatterDims S65536 S33554432x1 S33554432 where
  updateWindowDims := []
  insertedWindowDims := [0]
  scatterDimsToOperandDims := [0]
  indexVectorDim := 1
  wf := scatter_S65536_S33554432x1_S33554432_n_0_0_1_wf

class Facts : Prop extends Facts₀ where

variable [Facts]
-- ==== Proof.KPieces.lean ====
/-
  What each control case of the kernel body leaves in the carried accumulator and in the output block,
  as the body's arithmetic of the point's two input blocks and the accumulator it found.

  Every load and every store of the body moves a whole buffer: its rectangle is the buffer's full extent at
  offset zero.  So a load reads exactly the buffer's contents, the last store into a buffer decides what it
  holds whatever was stored before, and a load that follows a store reads that store's value.  In the first
  chunk the accumulator is first set to the zero block and then read back, so the sum starts from zero; in the
  other chunks it starts from what the chunk before left.  In the last chunk the output block is stored from
  a load of the accumulator just updated, so it is the same value.
-/
import proofs.«136074_j69106023792751_1_alg».proof.Proof.Gen.KernelIdeal.Frame
import Idealize.ShloMosaic.Lib.Pipeline.Value

noncomputable section

open scoped BigOperators

namespace Cert.KernelIdeal.Hist

open Cert.KernelIdeal Cert.KernelIdeal.Gen Idealize.ShloMosaic Idealize.ShloMosaic.TcCoe Idealize.SL.Sem
open Idealize.ShloMosaic.Pipeline (Dat Cfg Window)

variable {F : FTy → Type} [FloatOps F]

/-- The zero offsets of a rank-2 block, as the constant function. -/
private theorem hz2 : (![0, 0] : Fin 2 → Nat) = fun _ => 0 := funext fun a => by fin_cases a <;> rfl

/-- The zero offsets of a rank-3 block, as the constant function. -/
private theorem hz3 : (![0, 0, 0] : Fin 3 → Nat) = fun _ => 0 := funext fun a => by fin_cases a <;> rfl

/-- First chunk of a row block: the accumulator is reset to zero and the chunk's counts are added to that. -/
theorem sout_A (c : Dev nD) (i : grid0.Coords) (arg2 : Memref sig .tc .vmem S32x4096 .f32) (harg2 : arg2.IsWhole) (arg3 : Memref sig .tc .vmem S32x4096 .f32) (harg3 : arg3.IsWhole) (arg4 : Memref sig .tc .vmem S32x32x32 .f32) (harg4 : arg4.IsWhole) (arg5 : Memref sig .tc .vmem S32x32x32 .f32) (harg5 : arg5.IsWhole) (hc0 : cond0_0 i) (hc1 : ¬cond0_1 i) (x0 : Vec F S32x4096 .f32) (x1 : Vec F S32x4096 .f32) :
    sout0_A_0 c i arg2 harg2 arg3 harg3 arg4 harg4 arg5 harg5 hc0 hc1 x0 x1 = k0_pay1 (k0_pay3 x1) (k0_pay4 x0) (k0_pay5 x0 x1) (k0_pay2 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S32x32x32) hz3, View.readCov_unit_zero (S := S32x32x32) _ hz3]
  simp only [View.readAt_eq_ld, harg2.read_unread, harg3.read_unread, View.ld_unit_zero (S := S32x4096) hz2]

/-- A middle chunk: the chunk's counts are added to what the chunk before left. -/
theorem sout_B (c : Dev nD) (i : grid0.Coords) (arg2 : Memref sig .tc .vmem S32x4096 .f32) (harg2 : arg2.IsWhole) (arg3 : Memref sig .tc .vmem S32x4096 .f32) (harg3 : arg3.IsWhole) (arg4 : Memref sig .tc .vmem S32x32x32 .f32) (harg4 : arg4.IsWhole) (arg5 : Memref sig .tc .vmem S32x32x32 .f32) (harg5 : arg5.IsWhole) (hc0 : ¬cond0_0 i) (hc1 : ¬cond0_1 i) (x0 : Vec F S32x4096 .f32) (x1 : Vec F S32x4096 .f32) (xs0 : Vec F S32x32x32 .f32) :
    sout0_B_0 c i arg2 harg2 arg3 harg3 arg4 harg4 arg5 harg5 hc0 hc1 x0 x1 xs0 = k0_pay1 (k0_pay3 x1) (k0_pay4 x0) (k0_pay5 x0 x1) xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S32x32x32) hz3]
  simp only [View.readAt_eq_ld, harg2.read_unread, harg3.read_unread, harg5.read_unread, View.ld_unit_zero (S := S32x32x32) hz3, View.ld_unit_zero (S := S32x4096) hz2]

/-- The last chunk: the same update of the accumulator, -/
theorem sout_C (c : Dev nD) (i : grid0.Coords) (arg2 : Memref sig .tc .vmem S32x4096 .f32) (harg2 : arg2.IsWhole) (arg3 : Memref sig .tc .vmem S32x4096 .f32) (harg3 : arg3.IsWhole) (arg4 : Memref sig .tc .vmem S32x32x32 .f32) (harg4 : arg4.IsWhole) (arg5 : Memref sig .tc .vmem S32x32x32 .f32) (harg5 : arg5.IsWhole) (hc0 : ¬cond0_0 i) (hc1 : cond0_1 i) (x0 : Vec F S32x4096 .f32) (x1 : Vec F S32x4096 .f32) (xs0 : Vec F S32x32x32 .f32) :
    sout0_C_0 c i arg2 harg2 arg3 harg3 arg4 harg4 arg5 harg5 hc0 hc1 x0 x1 xs0 = k0_pay1 (k0_pay3 x1) (k0_pay4 x0) (k0_pay5 x0 x1) xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S32x32x32) hz3]
  simp only [View.readAt_eq_ld, harg2.read_unread, harg3.read_unread, harg5.read_unread, View.ld_unit_zero (S := S32x32x32) hz3, View.ld_unit_zero (S := S32x4096) hz2]

/-- and the output block is a copy of the updated accumulator. -/
theorem out_C (c : Dev nD) (i : grid0.Coords) (arg2 : Memref sig .tc .vmem S32x4096 .f32) (harg2 : arg2.IsWhole) (arg3 : Memref sig .tc .vmem S32x4096 .f32) (harg3 : arg3.IsWhole) (arg4 : Memref sig .tc .vmem S32x32x32 .f32) (harg4 : arg4.IsWhole) (arg5 : Memref sig .tc .vmem S32x32x32 .f32) (harg5 : arg5.IsWhole) (hc0 : ¬cond0_0 i) (hc1 : cond0_1 i) (x0 : Vec F S32x4096 .f32) (x1 : Vec F S32x4096 .f32) (xs0 : Vec F S32x32x32 .f32) :
    out0_C_2 c i arg2 harg2 arg3 harg3 arg4 harg4 arg5 harg5 hc0 hc1 x0 x1 xs0 = k0_pay1 (k0_pay3 x1) (k0_pay4 x0) (k0_pay5 x0 x1) xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S32x32x32) hz3, View.readCov_unit_zero (S := S32x32x32) _ hz3]
  simp only [View.readAt_eq_ld, harg2.read_unread, harg3.read_unread, harg5.read_unread, View.ld_unit_zero (S := S32x32x32) hz3, View.ld_unit_zero (S := S32x4096) hz2]

end Cert.KernelIdeal.Hist

end
-- ==== Proof.Spec.lean ====
/-
  The joint histogram both programs build, as one function of the two sample arrays.

  A sample pair (xv, yv) of row r falls in cell (i, j) of that row's 32 x 32 histogram when the
  clipped integer part of 32 * xv is i and that of 32 * yv is j; it is counted only when both
  coordinates lie in [0, 1].  The count of cell (i, j) of row r is the sum over the row's samples
  of the pair's weight for that cell, a product of three numbers that are each 0 or 1.
-/
import Idealize.ShloMosaic.PureOps.Ideal
import Idealize.ShloMosaic.PureOps.Ideal.Laws
import Idealize.ShloMosaic.Lib.ValueIdx

noncomputable section

open scoped BigOperators

namespace Hist

open Idealize.ShloMosaic Idealize.ShloMosaic.ValueIdx

/-- A signed 32-bit word clipped to 0 .. 31. -/
def clip (v : BitVec 32) : BitVec 32 := IntOp.minsi 31#32 (IntOp.maxsi 0#32 v)

/-- The bin of a sample: the integer part (toward zero, saturated) of 32 * v, clipped to 0 .. 31. -/
def bin (v : EReal) : BitVec 32 :=
  clip (Ideal.fptosi 32 (v * Ideal.ofBits .f32 0x42000000#32))

/-- The flat cell number of (row r, x-bin a, y-bin b) as a 32-bit word: r * 1024 + a * 32 + b. -/
def cellWord (r : Fin 64) (a b : BitVec 32) : BitVec 32 :=
  IntOp.addi (IntOp.addi (IntOp.muli (BitVec.ofNat 32 r.val) 1024#32) (IntOp.muli a 32#32)) b

/-- Both coordinates of a sample pair lie in [0, 1]: (0 <= xv and xv <= 1) and (0 <= yv and yv <= 1). -/
def inUnit (xv yv : EReal) : BitVec 1 :=
  IntOp.andi
    (IntOp.andi (Ideal.cmp .oge xv (Ideal.ofBits .f32 0x00000000#32)) (Ideal.cmp .ole xv (Ideal.ofBits .f32 0x3F800000#32)))
    (IntOp.andi (Ideal.cmp .oge yv (Ideal.ofBits .f32 0x00000000#32)) (Ideal.cmp .ole yv (Ideal.ofBits .f32 0x3F800000#32)))

/-- A one-hot entry: 1 when the word a is the number k, else 0 (a one-bit comparison widened to 32 bits and
    read as a signed integer). -/
def hot (a : BitVec 32) (k : Nat) : EReal :=
  ((((IntOp.cmpi .eq a (BitVec.ofNat 32 k)).setWidth 32).toInt : ℝ) : EReal)

/-- A one-bit mask as the number 0 or 1 (widened to 32 bits and read as a signed integer). -/
def maskVal (b : BitVec 1) : EReal := ((((b.setWidth 32).toInt : ℝ)) : EReal)

/-- The weight of the sample pair (xv, yv) for cell (i, j): (one-hot of x's bin at i, times the mask), times
    one-hot of y's bin at j. -/
def w (xv yv : EReal) (i j : Fin 32) : EReal :=
  (hot (bin xv) i.val * maskVal (inUnit xv yv)) * hot (bin yv) j.val

/-- The joint histogram: cell (i, j) of row r counts the row's sample pairs by their weights. -/
def count (x y : (⟨2, ![64, 524288]⟩ : Shape).Idx → EReal) : (⟨3, ![64, 32, 32]⟩ : Shape).Idx → EReal :=
  fun q => ∑ s : Fin 524288, w (x (ix2 (q 0) s)) (y (ix2 (q 0) s)) (q 1) (q 2)

end Hist

end
-- ==== Proof.KPayload.lean ====
/-
  The body's update of the accumulator read at one cell: the batched one-hot product contracts the chunk's
  4096 sample positions, so cell (i, j) of block row b gains the sum of the weights of that row's pairs.
-/
import proofs.«136074_j69106023792751_1_alg».proof.Proof.Gen.KernelIdeal.Skeleton
import proofs.«136074_j69106023792751_1_alg».proof.Proof.Spec
import Idealize.ShloMosaic.Lib.Pipeline.Value
import Idealize.ShloMosaic.PureOps.Ideal.Laws

noncomputable section

open scoped BigOperators

namespace Cert.KernelIdeal.Hist

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The views and spreads of the operands, read at an index -/

section Layout
variable {α : Type}

/-- A [32, 4096] array viewed [32, 1, 4096] reads (b, s) at (b, u, s). -/
theorem cast_mid_apply (v : S32x4096.Idx → α) (h : S32x4096.ShapeCasts S32x1x4096) (b : Fin 32) (u : Fin 1) (σ : Fin 4096) :
    shapeCast S32x1x4096 v h (ix3 b u σ) = v (ix2 b σ) :=
  shapeCast_apply v h _ _ (by
    have hu : u.val = 0 := by omega
    rw [Shape.rowMajor_val_three, Shape.rowMajor_val_two]
    show b.val * 4096 + σ.val = (b.val * 1 + u.val) * 4096 + σ.val
    rw [hu, Nat.mul_one, Nat.add_zero])

/-- A [32, 4096] array viewed [32, 4096, 1] reads (b, s) at (b, s, u). -/
theorem cast_last_apply (v : S32x4096.Idx → α) (h : S32x4096.ShapeCasts S32x4096x1) (b : Fin 32) (σ : Fin 4096) (u : Fin 1) :
    shapeCast S32x4096x1 v h (ix3 b σ u) = v (ix2 b σ) :=
  shapeCast_apply v h _ _ (by
    have hu : u.val = 0 := by omega
    rw [Shape.rowMajor_val_three, Shape.rowMajor_val_two]
    show b.val * 4096 + σ.val = (b.val * 4096 + σ.val) * 1 + u.val
    rw [hu, Nat.mul_one, Nat.add_zero])

/-- [32, 1, 4096] spread over the middle axis. -/
theorem bc_mid_apply (v : S32x1x4096.Idx → α) (h : S32x1x4096.Broadcasts S32x32x4096) (b i : Fin 32) (σ : Fin 4096) :
    broadcastTo S32x32x4096 v h (ix3 b i σ) = v (ix3 b (0 : Fin 1) σ) :=
  broadcastTo_apply v h (ix3 b i σ) (ix3 b (0 : Fin 1) σ) fun ax =>
    match ax with
    | ⟨0, _⟩ => rfl
    | ⟨1, _⟩ => rfl
    | ⟨2, _⟩ => rfl

/-- [1, 32, 1] spread over the first and last axes. -/
theorem bc_col_apply (v : S1x32x1.Idx → α) (h : S1x32x1.Broadcasts S32x32x4096) (b i : Fin 32) (σ : Fin 4096) :
    broadcastTo S32x32x4096 v h (ix3 b i σ) = v (ix3 (0 : Fin 1) i (0 : Fin 1)) :=
  broadcastTo_apply v h (ix3 b i σ) (ix3 (0 : Fin 1) i (0 : Fin 1)) fun ax =>
    match ax with
    | ⟨0, _⟩ => rfl
    | ⟨1, _⟩ => rfl
    | ⟨2, _⟩ => rfl

/-- [32, 4096, 1] spread over the last axis. -/
theorem bc_last_apply (v : S32x4096x1.Idx → α) (h : S32x4096x1.Broadcasts S32x4096x32) (b : Fin 32) (σ : Fin 4096) (j : Fin 32) :
    broadcastTo S32x4096x32 v h (ix3 b σ j) = v (ix3 b σ (0 : Fin 1)) :=
  broadcastTo_apply v h (ix3 b σ j) (ix3 b σ (0 : Fin 1)) fun ax =>
    match ax with
    | ⟨0, _⟩ => rfl
    | ⟨1, _⟩ => rfl
    | ⟨2, _⟩ => rfl

/-- [1, 1, 32] spread over the first two axes. -/
theorem bc_row_apply (v : S1x1x32.Idx → α) (h : S1x1x32.Broadcasts S32x4096x32) (b : Fin 32) (σ : Fin 4096) (j : Fin 32) :
    broadcastTo S32x4096x32 v h (ix3 b σ j) = v (ix3 (0 : Fin 1) (0 : Fin 1) j) :=
  broadcastTo_apply v h (ix3 b σ j) (ix3 (0 : Fin 1) (0 : Fin 1) j) fun ax =>
    match ax with
    | ⟨0, _⟩ => rfl
    | ⟨1, _⟩ => rfl
    | ⟨2, _⟩ => rfl

end Layout

/-! ## The three operands of the product, entry by entry -/

/-- The row one-hot: a [32, 4096] array of words compared, at (b, i, s), with the number i. -/
theorem onehot_lhs_apply (v : IVec S32x4096 32) (b i : Fin 32) (σ : Fin 4096) :
    (truncf .bf16 (sitofp .f32 (extui 32 (cmpi .eq
        (broadcastTo S32x32x4096 (shapeCast S32x1x4096 v shapeCasts_S32x4096_S32x1x4096) broadcasts_S32x1x4096_S32x32x4096)
        (broadcastTo S32x32x4096 (iota .tc S1x32x1 32 [1] iota_S1x32x1_d1_w32) broadcasts_S1x32x1_S32x32x4096)) natLt_1_32))
      bitsLt_bf16_f32 : FVec Ideal S32x32x4096 .bf16) (ix3 b i σ) = Hist.hot (v (ix2 b σ)) i.val := by
  show ((((IntOp.cmpi .eq (broadcastTo S32x32x4096 _ _ (ix3 b i σ)) (broadcastTo S32x32x4096 _ _ (ix3 b i σ))).setWidth 32).toInt : ℝ) : EReal) = _
  rw [bc_mid_apply, cast_mid_apply, bc_col_apply, iota_single_apply]
  rfl

/-- The column one-hot: the same array compared, at (b, s, j), with the number j. -/
theorem onehot_rhs_apply (v : IVec S32x4096 32) (b : Fin 32) (σ : Fin 4096) (j : Fin 32) :
    (truncf .bf16 (sitofp .f32 (extui 32 (cmpi .eq
        (broadcastTo S32x4096x32 (shapeCast S32x4096x1 v shapeCasts_S32x4096_S32x4096x1) broadcasts_S32x4096x1_S32x4096x32)
        (broadcastTo S32x4096x32 (iota .tc S1x1x32 32 [2] iota_S1x1x32_d2_w32) broadcasts_S1x1x32_S32x4096x32)) natLt_1_32))
      bitsLt_bf16_f32 : FVec Ideal S32x4096x32 .bf16) (ix3 b σ j) = Hist.hot (v (ix2 b σ)) j.val := by
  show ((((IntOp.cmpi .eq (broadcastTo S32x4096x32 _ _ (ix3 b σ j)) (broadcastTo S32x4096x32 _ _ (ix3 b σ j))).setWidth 32).toInt : ℝ) : EReal) = _
  rw [bc_last_apply, cast_last_apply, bc_row_apply, iota_single_apply]
  rfl

/-- The mask as a number: a [32, 4096] array of bits, viewed [32, 1, 4096], widened and read signed. -/
theorem mask_apply (m : IVec S32x4096 1) (b : Fin 32) (u : Fin 1) (σ : Fin 4096) :
    (sitofp .f32 (extui 32 (shapeCast S32x1x4096 m shapeCasts_S32x4096_S32x1x4096) natLt_1_32) : FVec Ideal S32x1x4096 .f32) (ix3 b u σ)
      = Hist.maskVal (m (ix2 b σ)) := by
  show (((((shapeCast S32x1x4096 m _ (ix3 b u σ)).setWidth 32).toInt : ℝ)) : EReal) = _
  rw [cast_mid_apply]
  rfl

/-- The y bin at (b, s). -/
theorem pay3_apply (x1 : Vec Ideal S32x4096 .f32) (b : Fin 32) (σ : Fin 4096) :
    k0_pay3 (F := Ideal) x1 (ix2 b σ) = Hist.bin (x1 (ix2 b σ)) := rfl

/-- The x one-hot at (b, i, s). -/
theorem pay4_apply (x0 : Vec Ideal S32x4096 .f32) (b i : Fin 32) (σ : Fin 4096) :
    k0_pay4 (F := Ideal) x0 (ix3 b i σ) = Hist.hot (Hist.bin (x0 (ix2 b σ))) i.val := by
  unfold k0_pay4
  exact onehot_lhs_apply _ b i σ

/-- The mask at (b, u, s). -/
theorem pay5_apply (x0 x1 : Vec Ideal S32x4096 .f32) (b : Fin 32) (u : Fin 1) (σ : Fin 4096) :
    k0_pay5 (F := Ideal) x0 x1 (ix3 b u σ) = Hist.maskVal (Hist.inUnit (x0 (ix2 b σ)) (x1 (ix2 b σ))) := by
  unfold k0_pay5
  exact mask_apply _ b u σ

/-! ## The batched product at one cell -/

/-- The left operand's index at result cell (b, i, j) and contraction position s is (b, i, s). -/
theorem lhs_idx (b i j : Fin 32) (c : Fin 4096) :
    dot_S32x32x4096_S32x4096x32_S32x32x32_2_1_1_2_0_0.lhsIdx (ix3 b i j)
      ((contrEquiv1 dot_S32x32x4096_S32x4096x32_S32x32x32_2_1_1_2_0_0 4096 rfl rfl).symm c) = ix3 b i c := by
  have hc := contrEquiv1_symm_val dot_S32x32x4096_S32x4096x32_S32x32x32_2_1_1_2_0_0 4096 rfl rfl c
  funext ax; apply Fin.ext
  match ax with
  | ⟨0, _⟩ => simp [DotDims.lhsIdx, dot_S32x32x4096_S32x4096x32_S32x32x32_2_1_1_2_0_0]; rfl
  | ⟨1, _⟩ => simp [DotDims.lhsIdx, dot_S32x32x4096_S32x4096x32_S32x32x32_2_1_1_2_0_0]; rfl
  | ⟨2, _⟩ => simp [DotDims.lhsIdx, dot_S32x32x4096_S32x4096x32_S32x32x32_2_1_1_2_0_0]; exact hc

/-- The right operand's index there is (b, s, j). -/
theorem rhs_idx (b i j : Fin 32) (c : Fin 4096) :
    dot_S32x32x4096_S32x4096x32_S32x32x32_2_1_1_2_0_0.rhsIdx (ix3 b i j)
      ((contrEquiv1 dot_S32x32x4096_S32x4096x32_S32x32x32_2_1_1_2_0_0 4096 rfl rfl).symm c) = ix3 b c j := by
  have hc := contrEquiv1_symm_val dot_S32x32x4096_S32x4096x32_S32x32x32_2_1_1_2_0_0 4096 rfl rfl c
  funext ax; apply Fin.ext
  match ax with
  | ⟨0, _⟩ => simp [DotDims.rhsIdx, dot_S32x32x4096_S32x4096x32_S32x32x32_2_1_1_2_0_0]; rfl
  | ⟨1, _⟩ => simp [DotDims.rhsIdx, dot_S32x32x4096_S32x4096x32_S32x32x32_2_1_1_2_0_0]; exact hc
  | ⟨2, _⟩ => simp [DotDims.rhsIdx, dot_S32x32x4096_S32x4096x32_S32x32x32_2_1_1_2_0_0]; rfl

/-- The product into a zero accumulator, at cell (b, i, j): the sum over the 4096 positions of the two entries'
    products. -/
theorem mm_apply (A : FVec Ideal S32x32x4096 .bf16) (B : FVec Ideal S32x4096x32 .bf16) (b i j : Fin 32) :
    matmul dot_S32x32x4096_S32x4096x32_S32x32x32_2_1_1_2_0_0 none A B (constant S32x32x32 .f32 0x00000000#32) (ix3 b i j)
      = ∑ σ : Fin 4096, A (ix3 b i σ) * B (ix3 b σ j) := by
  show FloatOps.matmul _ none A B _ (ix3 b i j) = _
  rw [Ideal.matmul_constant_zero_apply,
    ← Equiv.sum_comp (contrEquiv1 dot_S32x32x4096_S32x4096x32_S32x32x32_2_1_1_2_0_0 4096 rfl rfl).symm]
  exact Finset.sum_congr rfl fun c _ => by rw [lhs_idx, rhs_idx]

/-! ## The update at one cell -/

/-- The update over any three operands: the old value plus the sum of (row one-hot times mask) times the column
    one-hot of the word array. -/
theorem pay1_var (v29 : IVec S32x4096 32) (v37 : FVec Ideal S32x32x4096 .bf16) (v40 : FVec Ideal S32x1x4096 .f32)
    (prev : Vec Ideal S32x32x32 .f32) (b i j : Fin 32) :
    k0_pay1 (F := Ideal) v29 v37 v40 prev (ix3 b i j)
      = prev (ix3 b i j) + ∑ σ : Fin 4096, (v37 (ix3 b i σ) * v40 (ix3 b (0 : Fin 1) σ)) * Hist.hot (v29 (ix2 b σ)) j.val := by
  unfold k0_pay1
  rw [shapeCast_self]
  show prev (ix3 b i j) + matmul (F := Ideal) dot_S32x32x4096_S32x4096x32_S32x32x32_2_1_1_2_0_0 none _ _ (constant S32x32x32 .f32 0x00000000#32) (ix3 b i j) = _
  rw [mm_apply]
  refine congrArg (prev (ix3 b i j) + ·) (Finset.sum_congr rfl fun σ _ => ?_)
  rw [onehot_rhs_apply]
  refine congrArg (· * Hist.hot (v29 (ix2 b σ)) j.val) ?_
  show v37 (ix3 b i σ) * broadcastTo S32x32x4096 _ _ (ix3 b i σ) = _
  rw [bc_mid_apply]
  rfl

/-- The updated accumulator at cell (b, i, j): what it held plus the chunk's weights for that cell. -/
theorem pay_apply (x0 x1 : Vec Ideal S32x4096 .f32) (prev : Vec Ideal S32x32x32 .f32) (b i j : Fin 32) :
    k0_pay1 (F := Ideal) (k0_pay3 x1) (k0_pay4 x0) (k0_pay5 x0 x1) prev (ix3 b i j)
      = prev (ix3 b i j) + ∑ σ : Fin 4096, Hist.w (x0 (ix2 b σ)) (x1 (ix2 b σ)) i j := by
  rw [pay1_var]
  refine congrArg (prev (ix3 b i j) + ·) (Finset.sum_congr rfl fun σ _ => ?_)
  rw [pay3_apply, pay4_apply, pay5_apply]
  rfl

/-- The reset value is zero at every cell. -/
theorem pay2_apply (q : S32x32x32.Idx) : k0_pay2 (F := Ideal) q = (0 : EReal) := by
  unfold k0_pay2
  rw [shapeCast_self]
  exact Ideal.ofBits_zero_f32

end Cert.KernelIdeal.Hist

end
-- ==== Proof.KArray.lean ====
/-
  The array the pallas_call leaves: block row p of the output is written once, at the last of that row's 128
  chunks, with the accumulator that has summed the weights of all 128 chunks, so the whole array is the joint
  histogram of the two argument arrays.

  The grid's 256 points are numbered row block first: point t works on row block t / 128 (rows 32 * (t / 128) to
  32 * (t / 128) + 31) and on chunk t % 128 (positions 4096 * (t % 128) to 4096 * (t % 128) + 4095).  In order:
  what a cell of an input block is in its array; the accumulator after each point, by induction on the point, as a
  sum over the chunks seen so far; the 128 chunk sums of a row regrouped into the sum over the row's 524288
  positions; the block written back at the last chunk of a row block, and the cover of the array by those blocks.
-/
import proofs.«136074_j69106023792751_1_alg».proof.Proof.KPieces
import proofs.«136074_j69106023792751_1_alg».proof.Proof.KPayload

noncomputable section

open scoped BigOperators

namespace Cert.KernelIdeal.Hist

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! The lemmas on the way are kept in a namespace of their own; the result, `hist_array`, is stated after it. -/

namespace Arr

/-! ## The input blocks as parts of the argument arrays -/

/-- The block of x, and of y, that point t works on, and the two arrays, each at its literal type. -/
abbrev xblk (c : Dev nD) (t : Fin cfg0.N) : Vec Ideal S32x4096 .f32 := iblk m c 0 t
abbrev yblk (c : Dev nD) (t : Fin cfg0.N) : Vec Ideal S32x4096 .f32 := iblk m c 1 t
abbrev xarr (c : Dev nD) : Vec Ideal S64x524288 .f32 := V m c main_arg0
abbrev yarr (c : Dev nD) : Vec Ideal S64x524288 .f32 := V m c main_arg1

/-- The three index maps at point t: both inputs are at block (t / 128, t % 128), the output at block
    (t / 128, 0, 0). -/
theorem idx_facts : ∀ t : Fin cfg0.N,
    win0_0.index t (0 : Fin 2) = t.val / 128 ∧ win0_0.index t (1 : Fin 2) = t.val % 128
    ∧ win0_1.index t (0 : Fin 2) = t.val / 128 ∧ win0_1.index t (1 : Fin 2) = t.val % 128
    ∧ win0_2.index t (0 : Fin 3) = t.val / 128 ∧ win0_2.index t (1 : Fin 3) = 0 ∧ win0_2.index t (2 : Fin 3) = 0 :=
  (by decide +kernel : ∀ t : Fin grid0.N, _)

/-- Cell (b, σ) of the x block at point t is x at row 32 * (t / 128) + b, position 4096 * (t % 128) + σ. -/
theorem xblk_apply (c : Dev nD) (t : Fin cfg0.N) (b : Fin 32) (σ : Fin 4096) (r : Fin 64) (s : Fin 524288)
    (hr : r.val = 32 * (t.val / 128) + b.val) (hs : s.val = 4096 * (t.val % 128) + σ.val) :
    xblk m c t (ix2 b σ) = xarr m c (ix2 r s) := by
  obtain ⟨e0, e1, -⟩ := idx_facts t
  show (iblk m c 0 t : Vec Ideal S32x4096 .f32) (ix2 b σ) = V m c main_arg0 (ix2 r s)
  unfold iblk
  rw [View.read_apply]
  show V m c main_arg0 (((cfg0.win 0).blk t).view.emb (ix2 b σ)) = V m c main_arg0 (ix2 r s)
  congr 1
  funext a
  apply Fin.ext
  match a with
  | ⟨0, _⟩ => show win0_0.index t (0 : Fin 2) * 32 + 1 * b.val = r.val; rw [e0, hr]; omega
  | ⟨1, _⟩ => show win0_0.index t (1 : Fin 2) * 4096 + 1 * σ.val = s.val; rw [e1, hs]; omega

/-- The same for y. -/
theorem yblk_apply (c : Dev nD) (t : Fin cfg0.N) (b : Fin 32) (σ : Fin 4096) (r : Fin 64) (s : Fin 524288)
    (hr : r.val = 32 * (t.val / 128) + b.val) (hs : s.val = 4096 * (t.val % 128) + σ.val) :
    yblk m c t (ix2 b σ) = yarr m c (ix2 r s) := by
  obtain ⟨-, -, e0, e1, -⟩ := idx_facts t
  show (iblk m c 1 t : Vec Ideal S32x4096 .f32) (ix2 b σ) = V m c main_arg1 (ix2 r s)
  unfold iblk
  rw [View.read_apply]
  show V m c main_arg1 (((cfg0.win 1).blk t).view.emb (ix2 b σ)) = V m c main_arg1 (ix2 r s)
  congr 1
  funext a
  apply Fin.ext
  match a with
  | ⟨0, _⟩ => show win0_1.index t (0 : Fin 2) * 32 + 1 * b.val = r.val; rw [e0, hr]; omega
  | ⟨1, _⟩ => show win0_1.index t (1 : Fin 2) * 4096 + 1 * σ.val = s.val; rw [e1, hs]; omega

/-! ## The weights by row and position, and a chunk's sum -/

/-- The weight for cell (i, j) of the sample pair at row r, position s, with the row and the position as plain
    naturals (zero outside the arrays, where nothing reads it): sums over chunks and over rows are then sums over
    ranges of naturals. -/
def wN (c : Dev nD) (r s : ℕ) (i j : Fin 32) : EReal :=
  if h : r < 64 ∧ s < 524288 then
    Hist.w (xarr m c (ix2 ⟨r, h.1⟩ ⟨s, h.2⟩)) (yarr m c (ix2 ⟨r, h.1⟩ ⟨s, h.2⟩)) i j
  else 0

/-- The weights of row b of the blocks at point t (row block p, chunk g), summed over the chunk's 4096 positions,
    are those of row 32 * p + b of the arrays at positions 4096 * g to 4096 * g + 4095. -/
theorem chunk_eq (c : Dev nD) (t : Fin cfg0.N) (p g : ℕ) (hp : t.val / 128 = p) (hg : t.val % 128 = g)
    (b i j : Fin 32) :
    ∑ σ : Fin 4096, Hist.w (xblk m c t (ix2 b σ)) (yblk m c t (ix2 b σ)) i j
      = ∑ σ : Fin 4096, wN m c (32 * p + b.val) (4096 * g + σ.val) i j := by
  have hN : t.val < 256 := lt_of_lt_of_eq t.isLt N_0
  refine Finset.sum_congr rfl fun σ _ => ?_
  have hb : b.val < 32 := b.isLt
  have hσ : σ.val < 4096 := σ.isLt
  have hrs : 32 * p + b.val < 64 ∧ 4096 * g + σ.val < 524288 := by omega
  unfold wN
  rw [dif_pos hrs, xblk_apply m c t b σ ⟨32 * p + b.val, hrs.1⟩ ⟨4096 * g + σ.val, hrs.2⟩ (by rw [hp]) (by rw [hg]),
    yblk_apply m c t b σ ⟨32 * p + b.val, hrs.1⟩ ⟨4096 * g + σ.val, hrs.2⟩ (by rw [hp]) (by rw [hg])]

/-! ## The accumulator after each point -/

/-- At the first chunk of a row block the accumulator is reset, so it holds that chunk's weights (0 + a = a). -/
theorem acc_first (c : Dev nD) (t : Fin cfg0.N) (h0 : t.val % 128 = 0) (b i j : Fin 32) :
    (outsAt0 m c t.val t.isLt).2 (ix3 b i j)
      = ∑ σ : Fin 4096, wN m c (32 * (t.val / 128) + b.val) (4096 * 0 + σ.val) i j := by
  have h1 : ¬t.val % 128 = 127 := by omega
  rw [outsAt0_A m c t h0 h1]
  dsimp only
  refine (congrFun (sout_A (F := Ideal) c (grid0.coords t) (ms0_0 t) (hs0_0 t) (ms0_1 t) (hs0_1 t) (ms0_2 t) (hs0_2 t)
    scM0_0 (Memref.isWhole_whole _) ((hcond0_0 t).mpr h0) (fun h => h1 ((hcond0_1 t).mp h))
    (xblk m c t) (yblk m c t)) (ix3 b i j)).trans ?_
  refine (pay_apply (xblk m c t) (yblk m c t) (k0_pay2 (F := Ideal)) b i j).trans ?_
  rw [pay2_apply, zero_add]
  exact chunk_eq m c t (t.val / 128) 0 rfl h0 b i j

/-- At every later chunk, the last included, the accumulator gains that chunk's weights. -/
theorem acc_step (c : Dev nD) (t : Fin cfg0.N) (h0 : ¬t.val % 128 = 0) (b i j : Fin 32) :
    (outsAt0 m c t.val t.isLt).2 (ix3 b i j)
      = (outsAt0 m c (t.val - 1) (Nat.lt_of_le_of_lt (Nat.sub_le _ _) t.isLt)).2 (ix3 b i j)
        + ∑ σ : Fin 4096, wN m c (32 * (t.val / 128) + b.val) (4096 * (t.val % 128) + σ.val) i j := by
  by_cases h1 : t.val % 128 = 127
  · rw [outsAt0_C m c t h0 h1]
    dsimp only
    refine (congrFun (sout_C (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1)
      (xblk m c t) (yblk m c t) (outsAt0 m c (t.val - 1) (Nat.lt_of_le_of_lt (Nat.sub_le _ _) t.isLt)).2) (ix3 b i j)).trans ?_
    refine (pay_apply (xblk m c t) (yblk m c t) (outsAt0 m c (t.val - 1) (Nat.lt_of_le_of_lt (Nat.sub_le _ _) t.isLt)).2 b i j).trans ?_
    rw [chunk_eq m c t (t.val / 128) (t.val % 128) rfl rfl b i j]
  · rw [outsAt0_B m c t h0 h1]
    dsimp only
    refine (congrFun (sout_B (F := Ideal) c (grid0.coords t) (ms0_0 t) (hs0_0 t) (ms0_1 t) (hs0_1 t) (ms0_2 t) (hs0_2 t)
      scM0_0 (Memref.isWhole_whole _) (fun h => h0 ((hcond0_0 t).mp h)) (fun h => h1 ((hcond0_1 t).mp h))
      (xblk m c t) (yblk m c t) (outsAt0 m c (t.val - 1) (Nat.lt_of_le_of_lt (Nat.sub_le _ _) t.isLt)).2) (ix3 b i j)).trans ?_
    refine (pay_apply (xblk m c t) (yblk m c t) (outsAt0 m c (t.val - 1) (Nat.lt_of_le_of_lt (Nat.sub_le _ _) t.isLt)).2 b i j).trans ?_
    rw [chunk_eq m c t (t.val / 128) (t.val % 128) rfl rfl b i j]

/-- After point n the accumulator holds, at cell (i, j) of block row b, the weights of row 32 * (n / 128) + b over
    the chunks 0 to n % 128: by induction on the point, a point that starts a row block beginning the sum anew and
    every other point adding one more chunk to what the point before left. -/
theorem acc_eq (c : Dev nD) : ∀ (n : ℕ) (h : n < cfg0.N) (b i j : Fin 32),
    (outsAt0 m c n h).2 (ix3 b i j)
      = ∑ g ∈ Finset.range (n % 128 + 1), ∑ σ : Fin 4096, wN m c (32 * (n / 128) + b.val) (4096 * g + σ.val) i j := by
  intro n
  induction n with
  | zero =>
    intro h b i j
    refine (acc_first m c ⟨0, h⟩ rfl b i j).trans ?_
    rw [show 0 % 128 + 1 = 1 from rfl, Finset.sum_range_one]
  | succ n ih =>
    intro h b i j
    by_cases h0 : (n + 1) % 128 = 0
    · refine (acc_first m c ⟨n + 1, h⟩ h0 b i j).trans ?_
      rw [h0, Finset.sum_range_one]
    · refine (acc_step m c ⟨n + 1, h⟩ h0 b i j).trans ?_
      have e1 : (n + 1) / 128 = n / 128 := by omega
      have e2 : (n + 1) % 128 = n % 128 + 1 := by omega
      show (outsAt0 m c n (Nat.lt_of_succ_lt h)).2 (ix3 b i j) + _ = _
      rw [ih (Nat.lt_of_succ_lt h) b i j]
      dsimp only
      rw [e1, e2, Finset.sum_range_succ _ (n % 128 + 1)]

/-! ## The 128 chunks of a row are the row -/

/-- A sum over k chunks of n consecutive positions each is the sum over the first n * k positions. -/
theorem sum_range_chunks {M : Type*} [AddCommMonoid M] (f : ℕ → M) (n : ℕ) :
    ∀ k : ℕ, ∑ g ∈ Finset.range k, ∑ σ ∈ Finset.range n, f (n * g + σ) = ∑ s ∈ Finset.range (n * k), f s
  | 0 => by rw [Finset.sum_range_zero, Nat.mul_zero, Finset.sum_range_zero]
  | k + 1 => by rw [Finset.sum_range_succ, sum_range_chunks f n k, Nat.mul_succ, Finset.sum_range_add]

/-- The weights of row r over its 128 chunks of 4096 positions add up to the row's count (128 * 4096 = 524288). -/
theorem regroup (c : Dev nD) (r : Fin 64) (i j : Fin 32) :
    ∑ g ∈ Finset.range 128, ∑ σ : Fin 4096, wN m c r.val (4096 * g + σ.val) i j
      = Hist.count (xarr m c) (yarr m c) (ix3 r i j) := by
  have hl : ∀ g : ℕ, ∑ σ : Fin 4096, wN m c r.val (4096 * g + σ.val) i j
      = ∑ σ ∈ Finset.range 4096, wN m c r.val (4096 * g + σ) i j :=
    fun g => Fin.sum_univ_eq_sum_range (fun σ => wN m c r.val (4096 * g + σ) i j) 4096
  rw [Finset.sum_congr rfl fun g _ => hl g, sum_range_chunks (fun s => wN m c r.val s i j) 4096 128]
  show ∑ s ∈ Finset.range 524288, wN m c r.val s i j
    = ∑ s : Fin 524288, Hist.w (xarr m c (ix2 r s)) (yarr m c (ix2 r s)) i j
  rw [← Fin.sum_univ_eq_sum_range (fun s => wN m c r.val s i j) 524288]
  refine Finset.sum_congr rfl fun s _ => ?_
  unfold wN
  rw [dif_pos ⟨r.isLt, s.isLt⟩]

/-! ## The block written back, and the array -/

/-- At the last chunk of a row block the output block is a copy of the accumulator the point leaves. -/
theorem out_eq_acc (c : Dev nD) (t : Fin cfg0.N) (h1 : t.val % 128 = 127) :
    (outsAt0 m c t.val t.isLt).1 = (outsAt0 m c t.val t.isLt).2 := by
  have h0 : ¬t.val % 128 = 0 := by omega
  rw [outsAt0_C m c t h0 h1]
  dsimp only
  exact (out_C (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1)
      (xblk m c t) (yblk m c t) (outsAt0 m c (t.val - 1) (Nat.lt_of_le_of_lt (Nat.sub_le _ _) t.isLt)).2).trans
    (sout_C (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1)
      (xblk m c t) (yblk m c t) (outsAt0 m c (t.val - 1) (Nat.lt_of_le_of_lt (Nat.sub_le _ _) t.isLt)).2).symm

/-- So there it holds, at cell (b, i, j), the count of cell (i, j) of row 32 * (t / 128) + b: all 128 chunks are in. -/
theorem out_last (c : Dev nD) (t : Fin cfg0.N) (h1 : t.val % 128 = 127) (b i j : Fin 32) (r : Fin 64)
    (hr : r.val = 32 * (t.val / 128) + b.val) :
    (outsAt0 m c t.val t.isLt).1 (ix3 b i j) = Hist.count (xarr m c) (yarr m c) (ix3 r i j) := by
  rw [out_eq_acc m c t h1, acc_eq m c t.val t.isLt b i j, h1, ← hr]
  exact regroup m c r i j

/-- Cell (b, i, j) of the output's block at point t is cell (32 * (t / 128) + b, i, j) of the array. -/
theorem read_oblk (t : Fin cfg0.N) (G : Vec Ideal S64x32x32 .f32) (b i j : Fin 32) (r : Fin 64)
    (hr : r.val = 32 * (t.val / 128) + b.val) :
    ((cfg0.win 2).blk t).view.read (Elt Ideal) G (ix3 b i j) = G (ix3 r i j) := by
  obtain ⟨-, -, -, -, e0, e1, e2⟩ := idx_facts t
  rw [View.read_apply]
  show G (((cfg0.win 2).blk t).view.emb (ix3 b i j)) = G (ix3 r i j)
  congr 1
  funext a
  apply Fin.ext
  match a with
  | ⟨0, _⟩ => show win0_2.index t (0 : Fin 3) * 32 + 1 * b.val = r.val; rw [e0, hr]; omega
  | ⟨1, _⟩ => show win0_2.index t (1 : Fin 3) * 32 + 1 * i.val = i.val; rw [e1]; omega
  | ⟨2, _⟩ => show win0_2.index t (2 : Fin 3) * 32 + 1 * j.val = j.val; rw [e2]; omega

/-- What a point that writes the output back writes is its block of the joint histogram: only the last chunk of a
    row block writes back, and there the block holds the row block's counts. -/
theorem flushed_eq (c : Dev nD) (t : Fin cfg0.N) (hf : (cfg0.win 2).flush t = true) :
    (dats m 0 c).flushed 2 t
      = ((cfg0.win 2).blk t).view.read (Elt Ideal) (Hist.count (V m c main_arg0) (V m c main_arg1)) := by
  have h1 : t.val % 128 = 127 := (flush0_2 t).mp hf
  have hN : t.val < 256 := lt_of_lt_of_eq t.isLt N_0
  show (cfg0.win 2).cut (grid0.coords t) ((dats m 0 c).after 2 t) = _
  rw [after0_2]
  refine funext fun (y : S32x32x32.Idx) => ?_
  obtain ⟨b, i, j, rfl⟩ : ∃ b i j, y = ix3 b i j := ⟨y 0, y 1, y 2, eq_ix3 y⟩
  have hb : b.val < 32 := b.isLt
  refine (out_last m c t h1 b i j ⟨32 * (t.val / 128) + b.val, by omega⟩ rfl).trans ?_
  exact (read_oblk t (Hist.count (xarr m c) (yarr m c)) b i j ⟨32 * (t.val / 128) + b.val, by omega⟩ rfl).symm

/-- An index of the output array is in point t's block iff each coordinate is in the block's range on its axis. -/
theorem mem_blk (t : Fin cfg0.N) (q : S64x32x32.Idx) :
    q ∈ ((cfg0.win 2).blk t).view.set
      ↔ ∀ a : Fin 3, win0_2.index t a * S32x32x32.size a ≤ (q a).val
          ∧ (q a).val < win0_2.index t a * S32x32x32.size a + S32x32x32.size a := by
  show q ∈ ((View.whole main_v0).slice (win0_2.rect t)).set ↔ _
  rw [View.set_slice_whole, Rect.mem_set_unit]
  exact Iff.rfl

/-- Every cell of the output array is written back: row r lies in the block of the last chunk of row block r / 32,
    point 128 * (r / 32) + 127. -/
theorem cover (q : S64x32x32.Idx) :
    ∃ t : Fin cfg0.N, (cfg0.win 2).flush t = true ∧ q ∈ ((cfg0.win 2).blk t).view.set := by
  have hq0 : (q 0).val < 64 := (q 0).isLt
  have hq1 : (q 1).val < 32 := (q 1).isLt
  have hq2 : (q 2).val < 32 := (q 2).isLt
  have hlt : 128 * ((q 0).val / 32) + 127 < cfg0.N := by rw [show cfg0.N = 256 from N_0]; omega
  refine ⟨⟨128 * ((q 0).val / 32) + 127, hlt⟩,
    (flush0_2 _).mpr (by show (128 * ((q 0).val / 32) + 127) % 128 = 127; omega), ?_⟩
  obtain ⟨-, -, -, -, e0, e1, e2⟩ := idx_facts ⟨128 * ((q 0).val / 32) + 127, hlt⟩
  rw [mem_blk]
  intro a
  match a with
  | ⟨0, _⟩ =>
    show win0_2.index _ (0 : Fin 3) * 32 ≤ (q 0).val ∧ (q 0).val < win0_2.index _ (0 : Fin 3) * 32 + 32
    rw [e0]; dsimp only; omega
  | ⟨1, _⟩ =>
    show win0_2.index _ (1 : Fin 3) * 32 ≤ (q 1).val ∧ (q 1).val < win0_2.index _ (1 : Fin 3) * 32 + 32
    rw [e1]; omega
  | ⟨2, _⟩ =>
    show win0_2.index _ (2 : Fin 3) * 32 ≤ (q 2).val ∧ (q 2).val < win0_2.index _ (2 : Fin 3) * 32 + 32
    rw [e2]; omega

end Arr

/-- After the run the output array is the joint histogram of the region-entry contents of the two arguments. -/
theorem hist_array (c : Dev nD) :
    (dats m 0 c).arrAt 2 cfg0.N = Hist.count (V m c main_arg0) (V m c main_arg1) :=
  (dats m 0 c).arrAt_eq_of_cover 2 (Hist.count (V m c main_arg0) (V m c main_arg1))
    (fun t hf => Arr.flushed_eq m c t hf) Arr.cover

end Cert.KernelIdeal.Hist

end
-- ==== Proof.Tail.lean ====
/-
  What both programs compute from the joint histogram J (64 rows of 32 x 32 counts), as one function:
  p = J / (row total of J), px = sum of p over y-bins, py = sum of p over x-bins, each plus a small eps,
  mi(row) = sum over cells of (p + eps) * log ((p + eps) / ((px + eps) * (py + eps))), result = -(sum of mi) / 64.
-/
import Idealize.ShloMosaic.PureOps.Ideal
import Idealize.ShloMosaic.PureOps.Contract
import Idealize.ShloMosaic.PureOps.ShapeOps

noncomputable section

namespace Hist

open Idealize.ShloMosaic

abbrev T_ : Shape := ⟨0, ![]⟩
abbrev T64 : Shape := ⟨1, ![64]⟩
abbrev T64x1x1 : Shape := ⟨3, ![64, 1, 1]⟩
abbrev T64x32 : Shape := ⟨2, ![64, 32]⟩
abbrev T64x32x1 : Shape := ⟨3, ![64, 32, 1]⟩
abbrev T64x1x32 : Shape := ⟨3, ![64, 1, 32]⟩
abbrev T64x32x32 : Shape := ⟨3, ![64, 32, 32]⟩

variable {F : FTy → Type} [FloatOps F]

/-- The mutual-information value of a joint histogram, operation by operation as both programs compute it. -/
def tail (J : FVec F T64x32x32 .f32) : FVec F T_ .f32 :=
  let zero : FVec F T_ .f32 := constant T_ .f32 0x00000000#32
  let eps : FVec F T_ .f32 := constant T_ .f32 0x2EDBE6FF#32
  let tot : FVec F T64 .f32 := Host.reduceAdd (axes := [1, 2]) J zero (by decide) (by decide)
  let tot3 : FVec F T64x1x1 .f32 := broadcastInDim T64x1x1 ![0] (by decide) tot
  let totB : FVec F T64x32x32 .f32 := broadcastInDim T64x32x32 ![0, 1, 2] (by decide) tot3
  let p : FVec F T64x32x32 .f32 := Host.divf J totB
  let px : FVec F T64x32 .f32 := Host.reduceAdd (axes := [2]) p zero (by decide) (by decide)
  let px3 : FVec F T64x32x1 .f32 := broadcastInDim T64x32x1 ![0, 1] (by decide) px
  let py : FVec F T64x32 .f32 := Host.reduceAdd (axes := [1]) p zero (by decide) (by decide)
  let py3 : FVec F T64x1x32 .f32 := broadcastInDim T64x1x32 ![0, 2] (by decide) py
  let pj : FVec F T64x32x32 .f32 := addf p (broadcastInDim T64x32x32 ![] (by decide) eps)
  let pxe : FVec F T64x32x1 .f32 := addf px3 (broadcastInDim T64x32x1 ![] (by decide) eps)
  let pye : FVec F T64x1x32 .f32 := addf py3 (broadcastInDim T64x1x32 ![] (by decide) eps)
  let pxB : FVec F T64x32x32 .f32 := broadcastInDim T64x32x32 ![0, 1, 2] (by decide) pxe
  let pyB : FVec F T64x32x32 .f32 := broadcastInDim T64x32x32 ![0, 1, 2] (by decide) pye
  let ratio : FVec F T64x32x32 .f32 := Host.divf pj (mulf pxB pyB)
  let term : FVec F T64x32x32 .f32 := mulf pj (Host.log ratio)
  let mi : FVec F T64 .f32 := Host.reduceAdd (axes := [1, 2]) term zero (by decide) (by decide)
  let s : FVec F T_ .f32 := Host.reduceAdd (axes := [0]) mi zero (by decide) (by decide)
  Host.negf (Host.divf s (constant T_ .f32 0x42800000#32))

end Hist

end
-- ==== Proof.KTail.lean ====
/-
  The kernel program's run: the pallas_call leaves the joint histogram, and the host operations after it are the
  shared tail applied to that array.
-/
import proofs.«136074_j69106023792751_1_alg».proof.Proof.KArray
import proofs.«136074_j69106023792751_1_alg».proof.Proof.Tail
import Idealize.ShloMosaic.Lib.StableHlo.Run

noncomputable section

open scoped BigOperators

namespace Cert.KernelIdeal.Hist

open Cert.KernelIdeal Cert.KernelIdeal.Gen Idealize.ShloMosaic Idealize.ShloMosaic.TcCoe Idealize.ShloMosaic.ValueIdx Idealize.SL.Sem
open Idealize.ShloMosaic.Pipeline (Dat Cfg Window)
open Idealize.ShloMosaic.StableHlo

variable (m : (ℓ : Loc nD τ sig) → Buf (Elt Ideal) ℓ) (ρ : Dev nD → PrngReg)

/-- What the host operations after the pallas_call see in the output array's place: the joint histogram of the
    two arguments (the array the region leaves, and the arguments as the region found them). -/
theorem region_array (c : Dev nD) :
    Pipeline.withArrays (cfgs 0).spec c (V0 m c) (fun w => (dats m 0 c).arrAt w (cfgs 0).N) (Proc.devRef .tc main_v0)
      = Hist.count (m ((c.tc : Thread nD τ).loc main_arg0)) (m ((c.tc : Thread nD τ).loc main_arg1)) :=
  (Pipeline.withArrays_arr spec0 launch0.win.arr_inj c _ _ 2).trans
    ((hist_array m c).trans (by rw [V_main_arg0, V_main_arg1]))

set_option maxHeartbeats 8000000 in
set_option maxRecDepth 8192 in
/-- The program's result buffer after the host operations: every one of them is an operation of the shared tail,
    applied in the same order to the region's output array. -/
theorem tail_eq (c : Dev nD) :
    Pipeline.afterTail₀ cfgs (dats m) 0 (V0 m) [hostOps1] c main_v24
      = Hist.tail (F := Ideal) (Hist.count (m ((c.tc : Thread nD τ).loc main_arg0)) (m ((c.tc : Thread nD τ).loc main_arg1))) := by
  unfold Pipeline.afterTail₀
  show StableHlo.after hostOps1 _ (Proc.devRef .tc main_v24) = _
  after_results
  rw [region_array m c]
  rfl

/-- The result buffer is none of the region's arrays and is not scoped: the frame run states its final contents. -/
theorem result_mem_rest : main_v24 ∈ Pipeline.restRefs sig (cfgs 0).spec :=
  Pipeline.mem_restRefs_of main_v24 rfl (by decide)

/-- Every weakly fair execution of the idealized kernel program terminates with its result at the shared tail of
    the joint histogram of its arguments, and with the arguments unchanged. -/
theorem kernel_run :
    θ_run (defs (F := Ideal)) (onTc (τ := τ) (main (F := Ideal))) ⟨m, fun _ => 0, ρ⟩ (fun r => ∀ c : Dev nD,
      r.2.mem ((c.tc : Thread nD τ).loc main_v24)
          = Hist.tail (F := Ideal) (Hist.count (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v24 result_mem_rest).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.Hist

end
-- ==== Proof.RScatter.lean ====
/-
  The reference's scatter-add read at a cell: the zero start value plus the updates whose index word, read as a
  signed integer, is the cell's number.
-/
import proofs.«136074_j69106023792751_1_alg».proof.Proof.Gen.ReferenceIdeal.Read
import proofs.«136074_j69106023792751_1_alg».proof.Proof.Spec

noncomputable section

open scoped BigOperators

namespace Cert.ReferenceIdeal.Hist

open Cert.ReferenceIdeal Cert.ReferenceIdeal.Gen Cert.ReferenceIdeal.Read Idealize.ShloMosaic Idealize.ShloMosaic.ValueIdx

/-- The scatter's dimension numbers: a one-axis operand of 65536 cells, one scalar index per update, the
    operand's only axis both named by the index and inserted (the update window is a single element). -/
private abbrev D : ScatterDims S65536 S33554432x1 S33554432 := scatter_S65536_S33554432x1_S33554432_n_0_0_1

/-- The operand's only axis is an inserted one, so no window coordinate is ever added to the start. -/
private theorem window_zero (j : S33554432.Idx) (a : Fin S65536.rank) : D.window j a = 0 := by
  unfold ScatterDims.window
  rw [dif_neg]
  revert a
  decide

/-- Update n reads its start index at row n of the index array: its own coordinate on the row axis, and the
    only position, 0, on the index-vector axis (which has length one). -/
private theorem siIdx_eq (j : S33554432.Idx) (c : Fin D.scatterDimsToOperandDims.length) :
    D.siIdx j c = ix2 (j 0) (0 : Fin 1) := by
  funext b
  match b with
  | ⟨0, _⟩ =>
    unfold ScatterDims.siIdx
    rw [dif_neg (by exact Nat.zero_ne_one)]
    unfold ScatterDims.siCoord
    apply Fin.ext
    simp only [Fin.coe_cast]
    -- the updates have one axis, so whichever of their axes the lookup names is axis 0
    exact congrArg (fun t => (j t).val) (Subsingleton.elim (α := Fin 1) _ _)
  | ⟨1, _⟩ => exact Subsingleton.elim (α := Fin 1) _ _

/-- The start of update n's window on the operand's axis: the index word of row n, read signed. -/
private theorem start_eq (j : S33554432.Idx) (idx : IVec S33554432x1 32) (a : Fin S65536.rank) :
    D.start j idx a = (idx (ix2 (j 0) (0 : Fin 1))).toInt := by
  unfold ScatterDims.start
  rw [dif_pos (by revert a; decide), siIdx_eq]
  rfl

/-- Update n lands on cell k exactly when its index word, read signed, is k: the landing cell is the start
    itself, kept when it lies in 0 .. 65535 and dropped otherwise, and k lies in that range. -/
private theorem resultIdx_iff (j : S33554432.Idx) (idx : IVec S33554432x1 32) (k : Fin 65536) :
    D.resultIdx? j idx = some (ix1 k) ↔ (idx (ix2 (j 0) (0 : Fin 1))).toInt = (k.val : ℤ) := by
  unfold ScatterDims.resultIdx?
  simp only [start_eq, window_zero]
  have hk : k.val < 65536 := k.isLt
  constructor
  · intro h
    split at h
    · rename_i hP
      have h0 := (hP 0).1
      have h1 := congrArg (fun f => (f 0).val) (Option.some.inj h)
      simp only at h1
      change ((idx (ix2 (j 0) (0 : Fin 1))).toInt + ((0 : Nat) : ℤ)).toNat = k.val at h1
      omega
    · cases h
  · intro h
    have hP : ∀ a : Fin 1, 0 ≤ (idx (ix2 (j 0) (0 : Fin 1))).toInt + ((0 : Nat) : ℤ)
        ∧ (idx (ix2 (j 0) (0 : Fin 1))).toInt + ((0 : Nat) : ℤ) < ((![65536] a : Nat) : ℤ) := by
      intro a
      match a with
      | ⟨0, _⟩ =>
        change 0 ≤ (idx (ix2 (j 0) (0 : Fin 1))).toInt + ((0 : Nat) : ℤ)
          ∧ (idx (ix2 (j 0) (0 : Fin 1))).toInt + ((0 : Nat) : ℤ) < ((65536 : Nat) : ℤ)
        omega
    rw [dif_pos hP]
    congr 1
    funext a
    match a with
    | ⟨0, _⟩ =>
      apply Fin.ext
      change ((idx (ix2 (j 0) (0 : Fin 1))).toInt + ((0 : Nat) : ℤ)).toNat = k.val
      omega

/-- The scatter-add with these dimension numbers, at any operand, index array and updates: cell k holds the
    operand's value there plus the sum of the updates whose index word, read signed, is k. -/
private theorem scatterAdd_apply (x : S65536.Idx → EReal) (idx : IVec S33554432x1 32)
    (upd : S33554432.Idx → EReal) (k : Fin 65536) :
    Host.scatterAdd (F := Ideal) (φ := .f32) D x idx upd (ix1 k)
      = x (ix1 k) + ∑ n ∈ Finset.univ.filter (fun n : S33554432.Idx => (idx (ix2 (n 0) (0 : Fin 1))).toInt = (k.val : ℤ)), upd n := by
  have hS : Finset.univ.filter (fun n : S33554432.Idx => D.resultIdx? n idx = some (ix1 k))
      = Finset.univ.filter (fun n : S33554432.Idx => (idx (ix2 (n 0) (0 : Fin 1))).toInt = (k.val : ℤ)) :=
    Finset.filter_congr (fun n _ => resultIdx_iff n idx k)
  show x (ix1 k) + ∑ j ∈ Finset.univ.filter (fun j : S33554432.Idx => D.resultIdx? j idx = some (ix1 k)), upd j = _
  rw [hS]

/-- The reference's scatter is the scatter-add of the zero array, the index column and the flattened updates. -/
private theorem v33_eq (x0 x1 : (⟨S64x524288, .f32⟩ : BufTy).Contents (Elt Ideal)) :
    val_main_v33 (F := Ideal) x0 x1
      = Host.scatterAdd (F := Ideal) (φ := .f32) D (val_main_v31 (F := Ideal)) (val_main_v32 (F := Ideal) x0 x1)
          (val_main_v29 (F := Ideal) x0 x1) := rfl

/-- Row n of the index column is read from entry n of the flat index array. -/
private theorem idx32_eq (n : S33554432.Idx) : idx_main_v32 (ix2 (n 0) (0 : Fin 1)) = n := by
  funext a
  match a with
  | ⟨0, _⟩ => rfl

/-- Element k of the scatter's result: zero plus the sum of the updates that land on k. -/
theorem scatter_apply (x0 x1 : (⟨S64x524288, .f32⟩ : BufTy).Contents (Elt Ideal)) (k : Fin 65536) :
    val_main_v33 (F := Ideal) x0 x1 (ix1 k)
      = (0 : EReal) + ∑ n ∈ Finset.univ.filter (fun n : S33554432.Idx => (val_main_v30 (F := Ideal) x0 x1 n).toInt = (k.val : ℤ)),
          val_main_v29 (F := Ideal) x0 x1 n := by
  have h := scatterAdd_apply (val_main_v31 (F := Ideal)) (val_main_v32 (F := Ideal) x0 x1) (val_main_v29 (F := Ideal) x0 x1) k
  -- the start array is the zero splat
  have h0 : val_main_v31 (F := Ideal) (ix1 k) = (0 : EReal) := by
    rw [val_main_v31_apply, val_main_cst_10_apply]
    exact Ideal.ofBits_zero_f32
  -- the index column is the flat index array with a length-one axis appended
  have hS : Finset.univ.filter (fun n : S33554432.Idx => (val_main_v32 (F := Ideal) x0 x1 (ix2 (n 0) (0 : Fin 1))).toInt = (k.val : ℤ))
      = Finset.univ.filter (fun n : S33554432.Idx => (val_main_v30 (F := Ideal) x0 x1 n).toInt = (k.val : ℤ)) :=
    Finset.filter_congr (fun n _ => by rw [val_main_v32_apply, idx32_eq])
  rw [v33_eq, h, h0, hS]

end Cert.ReferenceIdeal.Hist

end
-- ==== Proof.RDecode.lean ====
/-
  Words: the flat cell number r * 1024 + a * 32 + b of clipped bins determines the row and both bins, and the
  0/1 readings of one-bit words.
-/
import proofs.«136074_j69106023792751_1_alg».proof.Proof.Spec

noncomputable section

open scoped BigOperators

namespace Hist

open Idealize.ShloMosaic

/-- A word that is neither negative nor above 31 as a signed integer is below 32 as an unsigned one. -/
theorem toNat_lt_of_signed_range (v : BitVec 32) (h0 : ¬ v.toInt < 0) (h31 : ¬ (31 : ℤ) < v.toInt) :
    v.toNat < 32 := by
  have hv := v.isLt
  rw [BitVec.toInt_eq_toNat_cond] at h0 h31
  split_ifs at h0 h31 with hc <;> omega

/-- A clipped word lies in 0 .. 31. -/
theorem clip_toNat_lt (v : BitVec 32) : (clip v).toNat < 32 := by
  have e31 : (31#32 : BitVec 32).toInt = 31 := by decide
  have e0 : (0#32 : BitVec 32).toInt = 0 := by decide
  unfold clip IntOp.minsi IntOp.maxsi
  by_cases h1 : v.slt 0#32 = true
  · rw [if_pos h1]
    by_cases h2 : (31#32 : BitVec 32).slt 0#32 = true
    · rw [if_pos h2]; decide
    · rw [if_neg h2]; decide
  · rw [if_neg h1]
    by_cases h2 : (31#32 : BitVec 32).slt v = true
    · rw [if_pos h2]; decide
    · rw [if_neg h2]
      rw [BitVec.slt_iff_toInt_lt] at h1 h2
      rw [e0] at h1
      rw [e31] at h2
      exact toNat_lt_of_signed_range v h1 h2

/-- With both bins below 32 and the row below 64 the word arithmetic of the flat cell number never wraps. -/
theorem cellWord_toNat (r' : Fin 64) (a b : BitVec 32) (ha : a.toNat < 32) (hb : b.toNat < 32) :
    (cellWord r' a b).toNat = r'.val * 1024 + a.toNat * 32 + b.toNat := by
  have hr := r'.isLt
  unfold cellWord IntOp.addi IntOp.muli
  simp only [BitVec.toNat_add, BitVec.toNat_mul, BitVec.toNat_ofNat]
  omega

/-- The flat cell number of clipped bins, read as a signed integer, is r * 1024 + i * 32 + j exactly when the row
    is r and the bins are i and j: nothing wraps, and the three digits are read off uniquely. -/
theorem cellWord_toInt_eq_iff (r r' : Fin 64) (u v : BitVec 32) (i j : Fin 32) :
    (cellWord r' (clip u) (clip v)).toInt = ((r.val * 1024 + i.val * 32 + j.val : ℕ) : ℤ)
      ↔ r' = r ∧ clip u = BitVec.ofNat 32 i.val ∧ clip v = BitVec.ofNat 32 j.val := by
  have ha := clip_toNat_lt u
  have hb := clip_toNat_lt v
  have hN := cellWord_toNat r' (clip u) (clip v) ha hb
  have hr' := r'.isLt
  have hr := r.isLt
  have hi := i.isLt
  have hj := j.isLt
  have hI : (cellWord r' (clip u) (clip v)).toInt = ((cellWord r' (clip u) (clip v)).toNat : ℤ) := by
    rw [BitVec.toInt_eq_toNat_cond, if_pos (by omega)]
  rw [hI, hN]
  constructor
  · intro h
    have h' : r'.val * 1024 + (clip u).toNat * 32 + (clip v).toNat = r.val * 1024 + i.val * 32 + j.val := by
      exact_mod_cast h
    refine ⟨Fin.ext (by omega), BitVec.eq_of_toNat_eq ?_, BitVec.eq_of_toNat_eq ?_⟩
    · rw [BitVec.toNat_ofNat]; omega
    · rw [BitVec.toNat_ofNat]; omega
  · rintro ⟨hrr, h1, h2⟩
    have e1 : (clip u).toNat = i.val := by rw [h1, BitVec.toNat_ofNat]; omega
    have e2 : (clip v).toNat = j.val := by rw [h2, BitVec.toNat_ofNat]; omega
    rw [e1, e2, hrr]

/-- A one-hot entry is 1 at its own bin and 0 elsewhere. -/
theorem hot_eq (a : BitVec 32) (k : Fin 32) : hot a k.val = if a = BitVec.ofNat 32 k.val then 1 else 0 := by
  have et : ((BitVec.ofBool true).setWidth 32).toInt = 1 := by decide
  have ef : ((BitVec.ofBool false).setWidth 32).toInt = 0 := by decide
  unfold hot IntOp.cmpi
  by_cases h : a = BitVec.ofNat 32 k.val
  · have hb : (a == BitVec.ofNat 32 k.val) = true := by rw [h]; exact beq_self_eq_true _
    rw [if_pos h, hb, et]; simp
  · have hb : (a == BitVec.ofNat 32 k.val) = false := by
      rw [beq_eq_false_iff_ne]; exact h
    rw [if_neg h, hb, ef]; simp

/-- A one-bit mask read through a signed 32-bit widening is the bit read unsigned. -/
theorem maskVal_eq_toNat (b : BitVec 1) : maskVal b = (((b.toNat : ℝ)) : EReal) := by
  have key : ∀ c : BitVec 1, (c.setWidth 32).toInt = (c.toNat : ℤ) := by decide
  unfold maskVal
  rw [key b, Int.cast_natCast]

/-- The four range tests joined left to right are the same bit as joined pairwise. -/
theorem andi_regroup (a b c d : BitVec 1) :
    IntOp.andi (IntOp.andi (IntOp.andi a b) c) d = IntOp.andi (IntOp.andi a b) (IntOp.andi c d) := by
  unfold IntOp.andi
  exact BitVec.and_assoc _ _ _

end Hist

end
-- ==== Proof.RHist.lean ====
/-
  The reference's joint histogram is the count function: the updates that land on cell (r, i, j) are the mask
  values of row r's sample pairs whose bins are i and j.
-/
import proofs.«136074_j69106023792751_1_alg».proof.Proof.RScatter
import proofs.«136074_j69106023792751_1_alg».proof.Proof.RDecode

noncomputable section

open scoped BigOperators

namespace Cert.ReferenceIdeal.Hist

open Cert.ReferenceIdeal Cert.ReferenceIdeal.Gen Cert.ReferenceIdeal.Read Idealize.ShloMosaic Idealize.ShloMosaic.ValueIdx

/-- Cell (r, i, j) of the reshaped array is flat element r * 1024 + i * 32 + j. -/
theorem idx_v34_ix3 (r : Fin 64) (i j : Fin 32) :
    idx_main_v34 (ix3 r i j) = ix1 (⟨r.val * 1024 + i.val * 32 + j.val, by omega⟩ : Fin 65536) := by
  funext a
  match a with
  | ⟨0, _⟩ => exact Fin.ext (by show (r.val * 32 + i.val) * 32 + j.val = r.val * 1024 + i.val * 32 + j.val; omega)

/-- A flat position n of the 33554432 updates is the pair (n / 524288, n % 524288), and every pair arises once. -/
def flatEquiv : S33554432.Idx ≃ S64x524288.Idx where
  toFun n := idx_main_v29 n
  invFun p := ix1 (⟨(p 0).val * 524288 + (p 1).val, by have h0 := idx2_lt0 p; have h1 := idx2_lt1 p; omega⟩ : Fin 33554432)
  left_inv n := by
    funext a
    match a with
    | ⟨0, _⟩ => exact Fin.ext (by show (n 0).val / 524288 * 524288 + (n 0).val % 524288 = (n 0).val; omega)
  right_inv p := by
    funext a
    match a with
    | ⟨0, _⟩ => exact Fin.ext (by have h1 := idx2_lt1 p; show ((p 0).val * 524288 + (p 1).val) / 524288 = (p 0).val; omega)
    | ⟨1, _⟩ => exact Fin.ext (by have h1 := idx2_lt1 p; show ((p 0).val * 524288 + (p 1).val) % 524288 = (p 1).val; omega)

/-- The index word at (r', s): the flat cell number of row r' and the two samples' bins. -/
theorem v27_at (x0 x1 : (⟨S64x524288, .f32⟩ : BufTy).Contents (Elt Ideal)) (r' : Fin 64) (s : Fin 524288) :
    val_main_v27 (F := Ideal) x0 x1 (ix2 r' s)
      = Hist.cellWord r' (Hist.bin (x0 (ix2 r' s))) (Hist.bin (x1 (ix2 r' s))) := by
  rw [val_main_v27_apply, val_main_v26_apply, val_main_v25_apply, val_main_v22_apply, val_main_v20_apply,
    val_main_v19_apply, val_main_v21_apply, val_main_c_8_apply, val_main_v24_apply, val_main_v14_apply,
    val_main_call0_v4_apply, val_main_call0_v3_apply, val_main_c_4_apply, val_main_call0_v2_apply,
    val_main_call0_v1_apply, val_main_call0_v0_apply, val_main_c_apply, val_main_v13_apply, val_main_v12_apply,
    val_main_v11_apply, val_main_cst_3_apply, val_main_v23_apply, val_main_c_9_apply, val_main_v18_apply,
    val_main_call1_v4_apply, val_main_call1_v3_apply, val_main_c_7_apply, val_main_call1_v2_apply,
    val_main_call1_v1_apply, val_main_call1_v0_apply, val_main_c_6_apply, val_main_v17_apply, val_main_v16_apply,
    val_main_v15_apply, val_main_cst_5_apply]
  rfl

/-- The update at (r', s): the number 0 or 1 of the range test on the sample pair. -/
theorem v28_at (x0 x1 : (⟨S64x524288, .f32⟩ : BufTy).Contents (Elt Ideal)) (p : S64x524288.Idx) :
    val_main_v28 (F := Ideal) x0 x1 p = Hist.maskVal (Hist.inUnit (x0 p) (x1 p)) := by
  rw [val_main_v28_apply, val_main_v10_apply, val_main_v7_apply, val_main_v4_apply, val_main_v1_apply,
    val_main_v0_apply, val_main_cst_apply, val_main_v3_apply, val_main_v2_apply, val_main_cst_0_apply,
    val_main_v6_apply, val_main_v5_apply, val_main_cst_1_apply, val_main_v9_apply, val_main_v8_apply,
    val_main_cst_2_apply, Hist.andi_regroup, Hist.maskVal_eq_toNat]
  rfl

/-- One sample pair's contribution to cell (i, j) of row r: its mask value when its flat cell number is the
    cell's, else nothing; that is the product of the two one-hot entries and the mask value. -/
theorem term_eq (r : Fin 64) (u v : BitVec 32) (m : BitVec 1) (i j : Fin 32) :
    (if (Hist.cellWord r (Hist.clip u) (Hist.clip v)).toInt = ((r.val * 1024 + i.val * 32 + j.val : ℕ) : ℤ)
        then Hist.maskVal m else 0)
      = (Hist.hot (Hist.clip u) i.val * Hist.maskVal m) * Hist.hot (Hist.clip v) j.val := by
  rw [Hist.hot_eq, Hist.hot_eq]
  by_cases h : (Hist.cellWord r (Hist.clip u) (Hist.clip v)).toInt = ((r.val * 1024 + i.val * 32 + j.val : ℕ) : ℤ)
  · obtain ⟨_, hu, hv⟩ := (Hist.cellWord_toInt_eq_iff r r u v i j).mp h
    rw [if_pos h, if_pos hu, if_pos hv, one_mul, mul_one]
  · rw [if_neg h]
    by_cases hu : Hist.clip u = BitVec.ofNat 32 i.val
    · have hv : ¬ Hist.clip v = BitVec.ofNat 32 j.val :=
        fun hv => h ((Hist.cellWord_toInt_eq_iff r r u v i j).mpr ⟨rfl, hu, hv⟩)
      rw [if_neg hv, mul_zero]
    · rw [if_neg hu, zero_mul, zero_mul]

/-- What the (row, sample) position p adds to the cell numbered K: its update when its index word reads K, else
    nothing. -/
def landed (x0 x1 : (⟨S64x524288, .f32⟩ : BufTy).Contents (Elt Ideal)) (K : ℤ) (p : S64x524288.Idx) : EReal :=
  if (val_main_v27 (F := Ideal) x0 x1 p).toInt = K then val_main_v28 (F := Ideal) x0 x1 p else 0

/-- At (r', s) that is the sample pair's mask value when row r' and the pair's bins make up the cell number. -/
theorem landed_at (x0 x1 : (⟨S64x524288, .f32⟩ : BufTy).Contents (Elt Ideal)) (K : ℤ) (r' : Fin 64) (s : Fin 524288) :
    landed x0 x1 K (ix2 r' s)
      = if (Hist.cellWord r' (Hist.bin (x0 (ix2 r' s))) (Hist.bin (x1 (ix2 r' s)))).toInt = K
          then Hist.maskVal (Hist.inUnit (x0 (ix2 r' s)) (x1 (ix2 r' s))) else 0 := by
  unfold landed
  rw [v27_at, v28_at]

/-- The updates that land on cell (r, i, j), summed over all flat positions: re-indexed by (row, sample), only
    row r contributes, and each of its sample pairs contributes its weight for the cell. -/
theorem sum_cell (x0 x1 : (⟨S64x524288, .f32⟩ : BufTy).Contents (Elt Ideal)) (r : Fin 64) (i j : Fin 32) :
    (∑ n : S33554432.Idx,
        if (val_main_v30 (F := Ideal) x0 x1 n).toInt = ((r.val * 1024 + i.val * 32 + j.val : ℕ) : ℤ)
          then val_main_v29 (F := Ideal) x0 x1 n else 0)
      = ∑ s : Fin 524288, Hist.w (x0 (ix2 r s)) (x1 (ix2 r s)) i j := by
  have h1 : ∀ n : S33554432.Idx,
      (if (val_main_v30 (F := Ideal) x0 x1 n).toInt = ((r.val * 1024 + i.val * 32 + j.val : ℕ) : ℤ)
          then val_main_v29 (F := Ideal) x0 x1 n else 0)
        = landed x0 x1 ((r.val * 1024 + i.val * 32 + j.val : ℕ) : ℤ) (flatEquiv n) := by
    intro n
    rw [val_main_v30_apply, val_main_v29_apply]
    rfl
  refine (Finset.sum_congr rfl (fun n _ => h1 n)).trans
    ((Equiv.sum_comp flatEquiv (landed x0 x1 ((r.val * 1024 + i.val * 32 + j.val : ℕ) : ℤ))).trans ?_)
  rw [sum_idx2, Finset.sum_eq_single r]
  · refine Finset.sum_congr rfl (fun s _ => ?_)
    rw [landed_at]
    exact term_eq r _ _ _ i j
  · intro a _ ha
    refine Finset.sum_eq_zero (fun s _ => ?_)
    rw [landed_at, if_neg]
    intro h
    exact ha ((Hist.cellWord_toInt_eq_iff r a _ _ i j).mp h).1
  · intro h
    exact absurd (Finset.mem_univ r) h

/-- The reshaped scatter result is the joint histogram of the two argument arrays. -/
theorem hist_eq (x0 x1 : (⟨S64x524288, .f32⟩ : BufTy).Contents (Elt Ideal)) :
    val_main_v34 (F := Ideal) x0 x1 = Hist.count x0 x1 := by
  funext q
  obtain ⟨r, i, j, rfl⟩ : ∃ (r : Fin 64) (i j : Fin 32), q = ix3 r i j := ⟨q 0, q 1, q 2, eq_ix3 q⟩
  rw [val_main_v34_apply, idx_v34_ix3, scatter_apply, zero_add, Finset.sum_filter]
  exact sum_cell x0 x1 r i j

end Cert.ReferenceIdeal.Hist

end
-- ==== Proof.RTail.lean ====
/-
  The reference's result is the shared tail applied to its joint histogram.
-/
import proofs.«136074_j69106023792751_1_alg».proof.Proof.Gen.ReferenceIdeal.Read
import proofs.«136074_j69106023792751_1_alg».proof.Proof.Tail

noncomputable section

namespace Cert.ReferenceIdeal.Hist

open Cert.ReferenceIdeal Cert.ReferenceIdeal.Gen Cert.ReferenceIdeal.Read Idealize.ShloMosaic

variable {F : FTy → Type} [FloatOps F]

/-- Every operation after the reshape of the scatter's result is an operation of the shared tail, in the same
    order on the same operands. -/
theorem result_eq_tail (x0 x1 : (⟨S64x524288, .f32⟩ : BufTy).Contents (Elt F)) :
    val_main_v58 (F := F) x0 x1 = Hist.tail (val_main_v34 (F := F) x0 x1) := rfl

end Cert.ReferenceIdeal.Hist

end
-- ==== Proof.lean ====
/-
  Mutual information of two sample arrays x, y : [64, 524288] through a per-row 32 x 32 joint histogram.

  The kernel builds the histogram of a block of 32 rows chunk by chunk: for a chunk of 4096 sample positions it
  forms the one-hot rows of x's bins (zeroed where the pair is outside [0,1] x [0,1]) and the one-hot columns of
  y's bins, contracts the sample axis with a batched matrix product, and adds the product to an accumulator that
  is reset at a row block's first chunk and copied out at its last.  The reference scatters each pair's 0/1 mask
  value onto the flat cell number row * 1024 + xbin * 32 + ybin.  Over the extended reals both arrays are the
  function `Hist.count`: cell (i, j) of row r is the sum over the row's samples of a weight that is the mask value
  when the pair's bins are (i, j) and zero otherwise; on the kernel's side the sum is grouped into 128 chunks, on
  the reference's side it is the sum of the updates landing on the cell, and the flat cell number determines the
  row and both bins because the clipped bins are digits below 32.  Neither grouping needs finiteness of the
  inputs: only associativity and commutativity of addition are used, and the comparison, the conversion to an
  integer and the clipping are the same functions on both sides.
  After the histogram both programs apply the same operations in the same order (`Hist.tail`), so equal
  histograms give equal results.  The idealization rewrote nothing, so the preservation claim is trivial.
-/
import proofs.«136074_j69106023792751_1_alg».proof.Defs
import proofs.«136074_j69106023792751_1_alg».proof.Proof.Gen.Kernel
import proofs.«136074_j69106023792751_1_alg».proof.Proof.Gen.Kernel.Frame
import proofs.«136074_j69106023792751_1_alg».proof.Proof.Gen.KernelIdeal
import proofs.«136074_j69106023792751_1_alg».proof.Proof.Gen.KernelIdeal.Frame
import proofs.«136074_j69106023792751_1_alg».proof.Proof.Gen.ReferenceIdeal
import proofs.«136074_j69106023792751_1_alg».proof.Proof.Gen.ReferenceIdeal.Run
import proofs.«136074_j69106023792751_1_alg».proof.Proof.Gen.ReferenceIdeal.Read
import proofs.«136074_j69106023792751_1_alg».proof.Proof.Gen.Pre_finite_inputs
import proofs.«136074_j69106023792751_1_alg».proof.Proof.KTail
import proofs.«136074_j69106023792751_1_alg».proof.Proof.RHist
import proofs.«136074_j69106023792751_1_alg».proof.Proof.RTail
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end at the shared tail of the joint histogram of the (agreeing) arguments. -/
theorem algebraic : Cert.algebraic_KernelIdeal_ReferenceIdeal := by
  intro m ρ m' ρ' _ hagree
  refine ⟨_, Cert.KernelIdeal.Hist.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, Cert.ReferenceIdeal.Hist.result_eq_tail,
    Cert.ReferenceIdeal.Hist.hist_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
